-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x64 : Shape := ⟨3, ![8, 1024, 64]⟩
abbrev S512x256 : Shape := ⟨2, ![512, 256]⟩
abbrev S_ : Shape := ⟨0, ![]⟩

class Facts : Prop where
  bcast_S_S8x1024x64 : S_.BroadcastsInDim S8x1024x64 (![] : Fin 0 → Fin S8x1024x64.rank)
  reducesTo_S8x1024x64_S_d0_1_2 : S8x1024x64.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg1 : IVec S8x1024x64 32) (main_v13 : IVec S_ 1) (main_v15 : IVec S8x1024x64 1) (main_c_5 : IVec S_ 1) : IVec S_ 1 :=
  let main_v16 : IVec S_ 1 := (fun x v => Host.reduce IntOp.andi x v reducesTo_S8x1024x64_S_d0_1_2 h_S_) main_v15 main_c_5
  let main_v17 : IVec S_ 1 := andi main_v13 main_v16
  let main_c_6 : IVec S_ 32 := constantI S_ 32 512#32
  let main_v18 : IVec S8x1024x64 32 := broadcastInDim S8x1024x64 ![] bcast_S_S8x1024x64 main_c_6
  let main_v19 : IVec S8x1024x64 1 := cmpi .slt main_arg1 main_v18
  let main_c_7 : IVec S_ 1 := constantI S_ 1 1#1
  let main_v20 : IVec S_ 1 := (fun x v => Host.reduce IntOp.andi x v reducesTo_S8x1024x64_S_d0_1_2 h_S_) main_v19 main_c_7
  let main_v21 : IVec S_ 1 := andi main_v17 main_v20
  main_v21

def fn {F : FTy → Type} [FloatOps F] (main_arg0 : FVec F S8x1024x64 .f32) (main_arg1 : IVec S8x1024x64 32) (main_arg2 : FVec F S512x256 .f32) (main_arg3 : FVec F S512x256 .f32) : IVec S_ 1 :=
  let main_v0 : FVec F S8x1024x64 .f32 := Host.absf main_arg0
  let main_cst : FVec F S_ .f32 := constant S_ .f32 0x7F800000#32
  let main_v1 : FVec F S8x1024x64 .f32 := broadcastInDim S8x1024x64 ![] bcast_S_S8x1024x64 main_cst
  let main_v2 : IVec S8x1024x64 1 := cmpf .olt main_v0 main_v1
  let main_c : IVec S_ 1 := constantI S_ 1 1#1
  let main_v3 : IVec S_ 1 := (fun x v => Host.reduce IntOp.andi x v reducesTo_S8x1024x64_S_d0_1_2 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_c_4 : IVec S_ 32 := constantI S_ 32 0#32
  let main_v14 : IVec S8x1024x64 32 := broadcastInDim S8x1024x64 ![] bcast_S_S8x1024x64 main_c_4
  let main_v15 : IVec S8x1024x64 1 := cmpi .sge main_arg1 main_v14
  let main_c_5 : IVec S_ 1 := constantI S_ 1 1#1
  fn_part1 (F := F) main_arg1 main_v13 main_v15 main_c_5
-- ==== Kernel.lean ====
abbrev S8x1024x64 : Shape := ⟨3, ![8, 1024, 64]⟩
abbrev S512x256 : Shape := ⟨2, ![512, 256]⟩
abbrev S64x256 : Shape := ⟨2, ![64, 256]⟩
abbrev S512x512 : Shape := ⟨2, ![512, 512]⟩
abbrev S8x64x1024 : Shape := ⟨3, ![8, 64, 1024]⟩
abbrev S8x1024x256 : Shape := ⟨3, ![8, 1024, 256]⟩
abbrev S1x64x1024 : Shape := ⟨3, ![1, 64, 1024]⟩
abbrev S1x1024x256 : Shape := ⟨3, ![1, 1024, 256]⟩
abbrev S1024x512 : Shape := ⟨2, ![1024, 512]⟩
abbrev S1024x256 : Shape := ⟨2, ![1024, 256]⟩
abbrev S64x1024 : Shape := ⟨2, ![64, 1024]⟩
abbrev S1x1024 : Shape := ⟨2, ![1, 1024]⟩
abbrev S1024 : Shape := ⟨1, ![1024]⟩
abbrev S1024x1 : Shape := ⟨2, ![1024, 1]⟩
abbrev S1x256 : Shape := ⟨2, ![1, 256]⟩
abbrev S256 : Shape := ⟨1, ![256]⟩

abbrev nBuf : Space → Nat
  | .hbm => 12
  | .vmem => 9
  | .smem => 0
  | _ => 0

abbrev bufTy : (tb : Table) → Fin (tcTables nBuf tb) → BufTy
  | .hbm, ⟨0, _⟩ => ⟨S8x1024x64, .f32⟩
  | .hbm, ⟨1, _⟩ => ⟨S8x1024x64, .i32⟩
  | .hbm, ⟨2, _⟩ => ⟨S512x256, .f32⟩
  | .hbm, ⟨3, _⟩ => ⟨S512x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S512x256, .f32⟩
  | .hbm, ⟨8, _⟩ => ⟨S512x512, .f32⟩
  | .hbm, ⟨9, _⟩ => ⟨S8x64x1024, .f32⟩
  | .hbm, ⟨10, _⟩ => ⟨S8x64x1024, .i32⟩
  | .hbm, ⟨11, _⟩ => ⟨S8x1024x256, .f32⟩
  | .local _ .vmem, ⟨0, _⟩ => ⟨S1x64x1024, .f32⟩
  | .local _ .vmem, ⟨1, _⟩ => ⟨S1x64x1024, .f32⟩
  | .local _ .vmem, ⟨2, _⟩ => ⟨S1x64x1024, .i32⟩
  | .local _ .vmem, ⟨3, _⟩ => ⟨S1x64x1024, .i32⟩
  | .local _ .vmem, ⟨4, _⟩ => ⟨S512x512, .f32⟩
  | .local _ .vmem, ⟨5, _⟩ => ⟨S64x256, .f32⟩
  | .local _ .vmem, ⟨6, _⟩ => ⟨S64x256, .f32⟩
  | .local _ .vmem, ⟨7, _⟩ => ⟨S1x1024x256, .f32⟩
  | .local _ .vmem, ⟨8, _⟩ => ⟨S1x1024x256, .f32⟩
  | _, _ => ⟨S8x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c32_i32 : BitVec 32 := 32#32
  let v4 : BitVec 32 := Scalar.addi c0_i32_2 c32_i32
  let c1_i32 : BitVec 32 := 1#32
  ⟨c0_i32_2, v4, c1_i32⟩
def k0_off1 (k0_t1 : Fin k0_t1_loop.trips) (c0_i32_8 : BitVec 32) : Fin 2 → Nat :=
  let c2_i32 : BitVec 32 := 2#32
  let c0_i32_2 : BitVec 32 := 0#32
  let c1_i32 : BitVec 32 := 1#32
  let arg7 : BitVec 32 := Scf.iv c0_i32_2 c1_i32 k0_t1
  let v11 : BitVec 32 := Scalar.muli c2_i32 arg7
  let v12 : BitVec 32 := Scalar.addi v11 c0_i32_8
  let v15 : Index := Scalar.indexCast v12
  let c0_11 : Index := 0#32
  ![v15.toNat, 0]
def k0_off2 (k0_t1 : Fin k0_t1_loop.trips) (c0_i32_8 : BitVec 32) : Fin 2 → Nat :=
  let c2_i32 : BitVec 32 := 2#32
  let c0_i32_2 : BitVec 32 := 0#32
  let c1_i32 : BitVec 32 := 1#32
  let arg7 : BitVec 32 := Scf.iv c0_i32_2 c1_i32 k0_t1
  let v11 : BitVec 32 := Scalar.muli c2_i32 arg7
  let v12 : BitVec 32 := Scalar.addi v11 c0_i32_8
  let v26 : Index := Scalar.indexCast v12
  let c0_13 : Index := 0#32
  ![v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S512x256_S64x256_150_0 : S512x256.Slices ![150, 0] S64x256
  concatenates_S512x256_S512x256_S512x512_d1 : Shape.Concatenates [S512x256, S512x256] S512x512 1
  transposes_S8x1024x64_S8x64x1024_0_2_1 : S8x1024x64.Transposes [0, 2, 1] S8x64x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S1024x512_d1_w32 : S1024x512.Iotas .tc 32 [1]
  inb_S1x64x1024_S1x64x1024_0_0_0 : ∀ a, (![0, 0, 0] : Fin 3 → Nat) a + S1x64x1024.size a ≤ S1x64x1024.size a
  squeezes_S1x64x1024_S64x1024 : S1x64x1024.Squeezes S64x1024
  h_S1x1024 : 0 < S1x1024.numel
  shapeCasts_S1x1024_S1024 : S1x1024.ShapeCasts S1024
  shapeCasts_S1024_S1024x1 : S1024.ShapeCasts S1024x1
  broadcasts_S1024x1_S1024x512 : S1024x1.Broadcasts S1024x512
  natLt_1_32 : 1 < 32
  slices_S1024x512_o0_0_S1024x256 : S1024x512.Slices ![0, 0] S1024x256
  slices_S1024x512_o0_256_S1024x256 : S1024x512.Slices ![0, 256] S1024x256
  h_S1x256 : 0 < S1x256.numel
  shapeCasts_S1x256_S256 : S1x256.ShapeCasts S256
  shapeCasts_S256_S1x256 : S256.ShapeCasts S1x256
  broadcasts_S1x256_S1024x256 : S1x256.Broadcasts S1024x256
  broadcasts_S1024x1_S1024x256 : S1024x1.Broadcasts S1024x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  dot_S1024x512_S512x512_S1024x512_1_0_0_1_n_n_wf : DotDims.WF S1024x512 S512x512 S1024x512 [1] [0] [0] [1] [] []
  hrank0 : 0 < grid0.rank
  k0_t1_ok : k0_t1_loop.OK
  k0_off1_inb : ∀ k0_t1 : Fin k0_t1_loop.trips, ∀ (r : Fin 2), ∀ a, (k0_off1 k0_t1 (BitVec.ofNat 32 r.val)) a + S1x1024.size a ≤ S64x1024.size a
  k0_off2_inb : ∀ k0_t1 : Fin k0_t1_loop.trips, ∀ (r : Fin 2), ∀ a, (k0_off2 k0_t1 (BitVec.ofNat 32 r.val)) a + S1x256.size a ≤ S64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1024.size a ≤ S8x64x1024.size a
  hwx0_0 : ∀ i : grid0.Coords, EltTy.bits .f32 = 32 ∨ (Rect.block (s := S8x64x1024) S1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S8x64x1024.size a
  hwx0_1 : ∀ i : grid0.Coords, EltTy.bits .i32 = 32 ∨ (Rect.block (s := S8x64x1024) S1x64x1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x256.size a ≤ S8x1024x256.size a
  hwx0_5 : ∀ i : grid0.Coords, EltTy.bits .f32 = 32 ∨ (Rect.block (s := S8x1024x256) S1x1024x256.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v5) S1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x1024x64 : Shape := ⟨3, ![8, 1024, 64]⟩
abbrev S512x256 : Shape := ⟨2, ![512, 256]⟩
abbrev S64 : Shape := ⟨1, ![64]⟩
abbrev S_ : Shape := ⟨0, ![]⟩
abbrev S8x1024x64x1 : Shape := ⟨4, ![8, 1024, 64, 1]⟩
abbrev S8x1024x64x256 : Shape := ⟨4, ![8, 1024, 64, 256]⟩
abbrev S64x1 : Shape := ⟨2, ![64, 1]⟩
abbrev S64x256 : Shape := ⟨2, ![64, 256]⟩
abbrev S1x1x64x256 : Shape := ⟨4, ![1, 1, 64, 256]⟩
abbrev S8x1024x256 : Shape := ⟨3, ![8, 1024, 256]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x64, .f32⟩
  | .hbm, ⟨1, _⟩ => ⟨S8x1024x64, .i32⟩
  | .hbm, ⟨2, _⟩ => ⟨S512x256, .f32⟩
  | .hbm, ⟨3, _⟩ => ⟨S512x256, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S8x1024x64, .i32⟩
  | .hbm, ⟨10, _⟩ => ⟨S8x1024x64, .i1⟩
  | .hbm, ⟨11, _⟩ => ⟨S_, .i32⟩
  | .hbm, ⟨12, _⟩ => ⟨S8x1024x64, .i32⟩
  | .hbm, ⟨13, _⟩ => ⟨S8x1024x64, .i32⟩
  | .hbm, ⟨14, _⟩ => ⟨S8x1024x64, .i32⟩
  | .hbm, ⟨15, _⟩ => ⟨S8x1024x64x1, .i32⟩
  | .hbm, ⟨16, _⟩ => ⟨S8x1024x64x256, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x256, .f32⟩
  | .hbm, ⟨26, _⟩ => ⟨S1x1x64x256, .f32⟩
  | .hbm, ⟨27, _⟩ => ⟨S8x1024x64x256, .f32⟩
  | .hbm, ⟨28, _⟩ => ⟨S8x1024x64x256, .f32⟩
  | .hbm, ⟨29, _⟩ => ⟨S_, .i32⟩
  | .hbm, ⟨30, _⟩ => ⟨S8x1024x64, .i32⟩
  | .hbm, ⟨31, _⟩ => ⟨S8x1024x64, .i1⟩
  | .hbm, ⟨32, _⟩ => ⟨S_, .i32⟩
  | .hbm, ⟨33, _⟩ => ⟨S8x1024x64, .i32⟩
  | .hbm, ⟨34, _⟩ => ⟨S8x1024x64, .i32⟩
  | .hbm, ⟨35, _⟩ => ⟨S8x1024x64, .i32⟩
  | .hbm, ⟨36, _⟩ => ⟨S8x1024x64x1, .i32⟩
  | .hbm, ⟨37, _⟩ => ⟨S8x1024x64x256, .f32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S64x1, .i32⟩
  | .hbm, ⟨46, _⟩ => ⟨S64x256, .f32⟩
  | .hbm, ⟨47, _⟩ => ⟨S1x1x64x256, .f32⟩
  | .hbm, ⟨48, _⟩ => ⟨S8x1024x64x256, .f32⟩
  | .hbm, ⟨49, _⟩ => ⟨S8x1024x64x256, .f32⟩
  | .hbm, ⟨50, _⟩ => ⟨S8x1024x64x1, .f32⟩
  | .hbm, ⟨51, _⟩ => ⟨S8x1024x64x256, .f32⟩
  | .hbm, ⟨52, _⟩ => ⟨S8x1024x64x256, .f32⟩
  | .hbm, ⟨53, _⟩ => ⟨S8x1024x64x256, .f32⟩
  | .hbm, ⟨54, _⟩ => ⟨S8x1024x64x256, .f32⟩
  | .hbm, ⟨55, _⟩ => ⟨S8x1024x64x256, .f32⟩
  | .hbm, ⟨56, _⟩ => ⟨S_, .f32⟩
  | .hbm, ⟨57, _⟩ => ⟨S8x1024x256, .f32⟩
  | .hbm, ⟨58, _⟩ => ⟨S_, .f32⟩
  | .hbm, ⟨59, _⟩ => ⟨S8x1024x256, .f32⟩
  | .hbm, ⟨60, _⟩ => ⟨S8x1024x256, .f32⟩
  | _, _ => ⟨S8x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S_S8x1024x64 : S_.BroadcastsInDim S8x1024x64 (![] : Fin 0 → Fin S8x1024x64.rank)
  bcast_S8x1024x64_S8x1024x64x1_0_1_2 : S8x1024x64.BroadcastsInDim S8x1024x64x1 (![0, 1, 2] : Fin 3 → Fin S8x1024x64x1.rank)
  bcast_S64_S64x1_0 : S64.BroadcastsInDim S64x1 (![0] : Fin 1 → Fin S64x1.rank)
  bcast_S64x256_S1x1x64x256_2_3 : S64x256.BroadcastsInDim S1x1x64x256 (![2, 3] : Fin 2 → Fin S1x1x64x256.rank)
  bcast_S1x1x64x256_S8x1024x64x256_0_1_2_3 : S1x1x64x256.BroadcastsInDim S8x1024x64x256 (![0, 1, 2, 3] : Fin 4 → Fin S8x1024x64x256.rank)
  bcast_S8x1024x64x1_S8x1024x64x256_0_1_2_3 : S8x1024x64x1.BroadcastsInDim S8x1024x64x256 (![0, 1, 2, 3] : Fin 4 → Fin S8x1024x64x256.rank)
  reducesTo_S8x1024x64x256_S8x1024x256_d2 : S8x1024x64x256.ReducesTo [2] S8x1024x256
  h_S_ : 0 < S_.numel
  bcast_S_S8x1024x256 : S_.BroadcastsInDim S8x1024x256 (![] : Fin 0 → Fin S8x1024x256.rank)
  gather_S512x256_S8x1024x64x1_S8x1024x64x256_3_0_n_n_0_3_1256_wf : GatherDims.WF S512x256 S8x1024x64x1 S8x1024x64x256 [3] [0] [] [0] [] 3 ![1, 256]
  gather_S512x256_S64x1_S64x256_1_0_n_n_0_1_1256_wf : GatherDims.WF S512x256 S64x1 S64x256 [1] [0] [] [0] [] 1 ![1, 256]

variable [Facts₀]

def gather_S512x256_S8x1024x64x1_S8x1024x64x256_3_0_n_n_0_3_1256 : GatherDims S512x256 S8x1024x64x1 S8x1024x64x256 where
  offsetDims := [3]
  collapsedSliceDims := [0]
  operandBatchingDims := []
  startIndicesBatchingDims := []
  startIndexMap := [0]
  indexVectorDim := 3
  sliceSizes := ![1, 256]
  wf := gather_S512x256_S8x1024x64x1_S8x1024x64x256_3_0_n_n_0_3_1256_wf
def gather_S512x256_S64x1_S64x256_1_0_n_n_0_1_1256 : GatherDims S512x256 S64x1 S64x256 where
  offsetDims := [1]
  collapsedSliceDims := [0]
  operandBatchingDims := []
  startIndicesBatchingDims := []
  startIndexMap := [0]
  indexVectorDim := 1
  sliceSizes := ![1, 256]
  wf := gather_S512x256_S64x1_S64x256_1_0_n_n_0_1_1256_wf

class Facts : Prop extends Facts₀ where

variable [Facts]
-- ==== Proof.K.Trip.lean ====
/-
  The kernel's loop as a function of what its five input blocks read as.

  A block of the float input and of the type words is one batch: 64 positions of 1024 rows.  Trip `k` of the loop
  takes positions `2k` and `2k + 1`: for each, the row of type words, the row of inputs and the position's row of the
  two 64 × 256 position tables, and adds that position's term to the running sum (the first half-step's payload
  `k0_pay5`, then the second's `k0_pay3` over it).  `accV … n` is the running sum after `n` trips from zero, and
  `OUT` what the body stores: the sum after all trips, scaled.
-/
import proofs.«409822_j60859686584405_3_alg».proof.Proof.Gen.Kernel.Skeleton
import Idealize.ShloMosaic.Lib.Pipeline.Value
import Idealize.ShloMosaic.Lib.Pipeline.FrameBody

noncomputable section

namespace Cert.Proof.K

open Cert.Kernel Cert.Kernel.Gen
open Idealize.ShloMosaic

variable {F : FTy → Type} [FloatOps F]

/-- One batch of 64 positions as a 64 × 1024 array: the leading unit axis dropped. -/
def sq {e : EltTy} (x : Vec F S1x64x1024 e) : Vec F S64x1024 e :=
  shapeCast S64x1024 (View.ld x (Rect.unit (s := S1x64x1024) ![0, 0, 0] S1x64x1024.size inb_S1x64x1024_S1x64x1024_0_0_0)) (by decide)

/-- Position `2k + u`'s row of a 64 × 1024 array and of a 64 × 256 table, as the trip's loads cut them. -/
abbrev rRow (k : Fin k0_t1_loop.trips) (u : Fin 2) : Rect S64x1024 :=
  Rect.unit (s := S64x1024) (k0_off1 k (BitVec.ofNat 32 u.val)) S1x1024.size (k0_off1_inb k u)
abbrev rPos (k : Fin k0_t1_loop.trips) (u : Fin 2) : Rect S64x256 :=
  Rect.unit (s := S64x256) (k0_off2 k (BitVec.ofNat 32 u.val)) S1x256.size (k0_off2_inb k u)
/-- The whole 512 × 512 table. -/
abbrev rTab : Rect S512x512 := Rect.unit (s := S512x512) ![0, 0] S512x512.size inb_S512x512_S512x512_0_0

/-- Trip `k`: from the running sum `acc`, the two half-steps' payloads over positions `2k` and `2k + 1`. -/
def tripV (x1 : Vec F S1x64x1024 .f32) (x2 : Vec F S1x64x1024 .i32) (x3 : Vec F S512x512 .f32) (x4 x5 : Vec F S64x256 .f32)
    (v2 : IVec S1024x512 32) (k : Fin k0_t1_loop.trips) (acc : FVec F S1024x256 .f32) : FVec F S1024x256 .f32 :=
  k0_pay3 (View.ld x3 rTab)
    (k0_pay5 (k0_pay1 (View.ld x3 rTab)) v2 acc (View.ld (sq x2) (rRow k 0)) (View.ld x4 (rPos k 0)) (View.ld x5 (rPos k 0)) (View.ld (sq x1) (rRow k 0)))
    (k0_pay6 (View.ld (sq x2) (rRow k 1))) (View.ld x4 (rPos k 1)) (View.ld x5 (rPos k 1)) (View.ld (sq x1) (rRow k 1))

/-- The running sum after `n` trips, from the zero block; constant once the trips are exhausted. -/
def accV (x1 : Vec F S1x64x1024 .f32) (x2 : Vec F S1x64x1024 .i32) (x3 : Vec F S512x512 .f32) (x4 x5 : Vec F S64x256 .f32)
    (v2 : IVec S1024x512 32) : ℕ → FVec F S1024x256 .f32
  | 0 => k0_pay2
  | n + 1 => if h : n < k0_t1_loop.trips then tripV x1 x2 x3 x4 x5 v2 ⟨n, h⟩ (accV x1 x2 x3 x4 x5 v2 n) else accV x1 x2 x3 x4 x5 v2 n

theorem accV_succ (x1 : Vec F S1x64x1024 .f32) (x2 : Vec F S1x64x1024 .i32) (x3 : Vec F S512x512 .f32) (x4 x5 : Vec F S64x256 .f32)
    (v2 : IVec S1024x512 32) (k : Fin k0_t1_loop.trips) :
    accV x1 x2 x3 x4 x5 v2 (k.val + 1) = tripV x1 x2 x3 x4 x5 v2 k (accV x1 x2 x3 x4 x5 v2 k.val) := by
  rw [accV.eq_2]; exact dif_pos k.isLt

/-- The column numbers `0 … 511` along each of the 1024 rows, against which a row's type word is compared. -/
abbrev lane : IVec S1024x512 32 := iota .tc S1024x512 32 [1] iota_S1024x512_d1_w32

/-- What the body stores in the result's block: the sum after all the trips, scaled, as a 1 × 1024 × 256 block. -/
def OUT (x1 : Vec F S1x64x1024 .f32) (x2 : Vec F S1x64x1024 .i32) (x3 : Vec F S512x512 .f32) (x4 x5 : Vec F S64x256 .f32) :
    FVec F S1x1024x256 .f32 :=
  k0_pay4 (accV x1 x2 x3 x4 x5 lane k0_t1_loop.trips)

end Cert.Proof.K

end
-- ==== Proof.K.Run.lean ====
/-
  The kernel body's run, the pipeline's proof data and the frame run: the part of the frame that is the proof's,
  because the body's loop reads the two batch blocks through a view with the unit axis dropped.  For every float
  instance.

  * the two batch buffers, held whole, are held the same through that view (the view keeps the element set), which
    is how the loop's invariant holds them;
  * the trip the loop's run finds is `tripV` of what the buffers read as, so the value the loop carries after `n`
    trips is `accV … n`, and the body stores `OUT` of the five input blocks into the result's block;
  * the proof data: every input's buffer is left at its block, the result's at `OUT` of the input blocks.
-/
import proofs.«409822_j60859686584405_3_alg».proof.Proof.Gen.Kernel.Frame
import proofs.«409822_j60859686584405_3_alg».proof.Proof.Gen.Kernel.Loops
import Idealize.ShloMosaic.Lib.Pipeline.Value
import proofs.«409822_j60859686584405_3_alg».proof.Proof.K.Trip

noncomputable section

namespace Cert.Proof.K

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ
abbrev 𝒱₀ : Variants := Variants.none

/-- A memref of one batch of 64 rows, held whole, is held the same through the squeeze of its whole slice (the view
    the loop's loads go through): the squeeze and the whole slice keep the element set. -/
theorem pts_squeeze_slice {e : EltTy} (c : Dev nD) (M : Memref sig .tc .vmem S1x64x1024 e)
    (f : BufTy.Contents (Elt F) M.view.ty) :
    (M.view.loc (c : Thread nD τ) ↦[M.view.set]{fullShare} f : sProp 𝕄)
      = (((M.slice (Rect.unit (s := S1x64x1024) ![0, 0, 0] S1x64x1024.size inb_S1x64x1024_S1x64x1024_0_0_0) (fun _ => rfl)).squeeze S64x1024 squeezes_S1x64x1024_S64x1024).view.loc (c : Thread nD τ)
          ↦[((M.slice (Rect.unit (s := S1x64x1024) ![0, 0, 0] S1x64x1024.size inb_S1x64x1024_S1x64x1024_0_0_0) (fun _ => rfl)).squeeze S64x1024 squeezes_S1x64x1024_S64x1024).view.set]{fullShare} f) := by
  have hu : (Rect.unit (s := S1x64x1024) ![0, 0, 0] S1x64x1024.size inb_S1x64x1024_S1x64x1024_0_0_0).set = Finset.univ :=
    Finset.eq_univ_iff_forall.mpr fun i => Rect.mem_set_unit.mpr fun a => by
      have h := (i a).isLt
      fin_cases a <;> exact ⟨Nat.zero_le _, by simpa using h⟩
  have hs : ((M.slice (Rect.unit (s := S1x64x1024) ![0, 0, 0] S1x64x1024.size inb_S1x64x1024_S1x64x1024_0_0_0) (fun _ => rfl)).squeeze S64x1024 squeezes_S1x64x1024_S64x1024).view.set = M.view.set := by
    rw [Memref.set_view_squeeze]
    show (M.view.slice _).set = _
    rw [View.set_slice, hu]; rfl
  exact congrArg (fun S => (M.view.loc (c : Thread nD τ) ↦[S]{fullShare} f : sProp 𝕄)) hs.symm

section Bufs

variable (c : Dev nD) (i : grid0.Coords) (arg1 : Memref sig .tc .vmem S1x64x1024 .f32) (harg1 : arg1.IsWhole) (arg2 : Memref sig .tc .vmem S1x64x1024 .i32) (harg2 : arg2.IsWhole) (arg3 : Memref sig .tc .vmem S512x512 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x1024x256 .f32) (harg6 : arg6.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (v2 : IVec S1024x512 32)
  (h14 : ((arg2.slice (Rect.unit (s := S1x64x1024) ![0, 0, 0] S1x64x1024.size inb_S1x64x1024_S1x64x1024_0_0_0) (fun _ => rfl)).squeeze S64x1024 squeezes_S1x64x1024_S64x1024) = ((arg2.slice (Rect.unit (s := S1x64x1024) ![0, 0, 0] S1x64x1024.size inb_S1x64x1024_S1x64x1024_0_0_0) (fun _ => rfl)).squeeze S64x1024 squeezes_S1x64x1024_S64x1024)) (h39 : ((arg1.slice (Rect.unit (s := S1x64x1024) ![0, 0, 0] S1x64x1024.size inb_S1x64x1024_S1x64x1024_0_0_0) (fun _ => rfl)).squeeze S64x1024 squeezes_S1x64x1024_S64x1024) = ((arg1.slice (Rect.unit (s := S1x64x1024) ![0, 0, 0] S1x64x1024.size inb_S1x64x1024_S1x64x1024_0_0_0) (fun _ => rfl)).squeeze S64x1024 squeezes_S1x64x1024_S64x1024))

/-- The trip the run of the loop's region finds, at the buffers' contents, is `tripV` of what the buffers read as:
    the region's loads read positions `2k`, `2k + 1` through the views of the two batch buffers and off the two
    position tables, and its yield is the second half-step's payload over the first's. -/
theorem tripR_eq (k : Fin k0_t1_loop.trips) (acc : FVec F S1024x256 .f32) :
    tripR_k0_t1 (F := F) 𝒱₀ c none i arg1 harg1 arg2 harg2 arg3 harg3 arg4 harg4 arg5 harg5 arg6 harg6 (View.readAt (Elt F) arg3.view rTab.toLoadRect f3) v2 ((arg2.slice (Rect.unit (s := S1x64x1024) ![0, 0, 0] S1x64x1024.size inb_S1x64x1024_S1x64x1024_0_0_0) (fun _ => rfl)).squeeze S64x1024 squeezes_S1x64x1024_S64x1024) h14 ((arg1.slice (Rect.unit (s := S1x64x1024) ![0, 0, 0] S1x64x1024.size inb_S1x64x1024_S1x64x1024_0_0_0) (fun _ => rfl)).squeeze S64x1024 squeezes_S1x64x1024_S64x1024) h39 f4 f5 f2 f1 k acc = tripV (arg1.view.read (Elt F) f1) (arg2.view.read (Elt F) f2) (arg3.view.read (Elt F) f3) (arg4.view.read (Elt F) f4) (arg5.view.read (Elt F) f5) v2 k acc := by
  unfold tripR_k0_t1 trip_k0_t1
  dsimp only
  unfold trip_k0_t1.sl.r trip_k0_t1.sl.r_1
  rfl

/-- The value the loop carries after `n` trips from the zero block is `accV … n`. -/
theorem st_eq : ∀ n, st_k0_t1 (F := F) 𝒱₀ c none i arg1 harg1 arg2 harg2 arg3 harg3 arg4 harg4 arg5 harg5 arg6 harg6 (View.readAt (Elt F) arg3.view rTab.toLoadRect f3) v2 ((arg2.slice (Rect.unit (s := S1x64x1024) ![0, 0, 0] S1x64x1024.size inb_S1x64x1024_S1x64x1024_0_0_0) (fun _ => rfl)).squeeze S64x1024 squeezes_S1x64x1024_S64x1024) h14 ((arg1.slice (Rect.unit (s := S1x64x1024) ![0, 0, 0] S1x64x1024.size inb_S1x64x1024_S1x64x1024_0_0_0) (fun _ => rfl)).squeeze S64x1024 squeezes_S1x64x1024_S64x1024) h39 f4 f5 f2 f1 k0_pay2 n = accV (arg1.view.read (Elt F) f1) (arg2.view.read (Elt F) f2) (arg3.view.read (Elt F) f3) (arg4.view.read (Elt F) f4) (arg5.view.read (Elt F) f5) v2 n
  | 0 => rfl
  | n + 1 => by
    by_cases h : n < k0_t1_loop.trips
    · refine (st_k0_t1_succ (F := F) 𝒱₀ c none i arg1 harg1 arg2 harg2 arg3 harg3 arg4 harg4 arg5 harg5 arg6 harg6 (View.readAt (Elt F) arg3.view rTab.toLoadRect f3) v2 ((arg2.slice (Rect.unit (s := S1x64x1024) ![0, 0, 0] S1x64x1024.size inb_S1x64x1024_S1x64x1024_0_0_0) (fun _ => rfl)).squeeze S64x1024 squeezes_S1x64x1024_S64x1024) h14 ((arg1.slice (Rect.unit (s := S1x64x1024) ![0, 0, 0] S1x64x1024.size inb_S1x64x1024_S1x64x1024_0_0_0) (fun _ => rfl)).squeeze S64x1024 squeezes_S1x64x1024_S64x1024) h39 f4 f5 f2 f1 k0_pay2 ⟨n, h⟩).trans ?_
      refine Eq.trans ?_ (accV_succ (arg1.view.read (Elt F) f1) (arg2.view.read (Elt F) f2) (arg3.view.read (Elt F) f3) (arg4.view.read (Elt F) f4) (arg5.view.read (Elt F) f5) v2 ⟨n, h⟩).symm
      rw [tripR_eq]
      exact congrArg _ (st_eq n)
    · rw [st_k0_t1.eq_2, accV.eq_2]; unfold st_k0_t1Step; rw [dif_neg h, dif_neg h]; exact st_eq n

end Bufs

/-- The whole-block rectangle's offsets are zero. -/
theorem off0 : (![0, 0, 0] : Fin 3 → ℕ) = fun _ => 0 := funext fun a => by fin_cases a <;> rfl

/-- One store through the whole-block rectangle covers every index of the result's block. -/
theorem cover_out (w : Vec F S1x1024x256 .f32) (y : S1x1024x256.Idx) :
    ∃ pc ∈ ([⟨Rect.unit (s := S1x1024x256) ![0, 0, 0] S1x1024x256.size inb_S1x1024x256_S1x1024x256_0_0_0, w⟩] : List (View.Piece (Elt F) S1x1024x256 .f32)), y ∈ pc.1.set :=
  View.cover_of_tiled [⟨Rect.unit (s := S1x1024x256) ![0, 0, 0] S1x1024x256.size inb_S1x1024x256_S1x1024x256_0_0_0, w⟩] S1x1024x256.size (by rfl) y

/-! ## The body's triple -/

/-- The kernel body on whole staging memrefs, the five inputs' at read contents `x1 … x5`, the result's at anything,
    runs to the continuation holding the inputs' as they were and the result's at `OUT x1 … x5`: the table is loaded,
    the loop runs by its invariant (the two batch buffers handed to it through their views), and the scaled sum is
    stored over the whole block. -/
theorem sound_kernel (c : Dev nD) (i : grid0.Coords) (arg1 : Memref sig .tc .vmem S1x64x1024 .f32) (harg1 : arg1.IsWhole) (arg2 : Memref sig .tc .vmem S1x64x1024 .i32) (harg2 : arg2.IsWhole) (arg3 : Memref sig .tc .vmem S512x512 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x1024x256 .f32) (harg6 : arg6.IsWhole)
    (x1 : Vec F S1x64x1024 .f32) (x2 : Vec F S1x64x1024 .i32) (x3 : Vec F S512x512 .f32) (x4 x5 : Vec F S64x256 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (OUT x1 x2 x3 x4 x5)) -∗ K ⟨⟩))
      ⊢ wp frame (wpE (defs₀ (F := F)) 𝒱₀ c none) Set.univ (cc0__kernel i arg1 harg1 arg2 harg2 arg3 harg3 arg4 harg4 arg5 harg5 arg6 harg6) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  have hcanon_v14 : ((arg2.slice (Rect.unit (s := S1x64x1024) ![0, 0, 0] S1x64x1024.size inb_S1x64x1024_S1x64x1024_0_0_0) (fun _ => rfl)).squeeze S64x1024 squeezes_S1x64x1024_S64x1024) = ((arg2.slice (Rect.unit (s := S1x64x1024) ![0, 0, 0] S1x64x1024.size inb_S1x64x1024_S1x64x1024_0_0_0) (fun _ => rfl)).squeeze S64x1024 squeezes_S1x64x1024_S64x1024) := rfl
  have hcanon_v39 : ((arg1.slice (Rect.unit (s := S1x64x1024) ![0, 0, 0] S1x64x1024.size inb_S1x64x1024_S1x64x1024_0_0_0) (fun _ => rfl)).squeeze S64x1024 squeezes_S1x64x1024_S64x1024) = ((arg1.slice (Rect.unit (s := S1x64x1024) ![0, 0, 0] S1x64x1024.size inb_S1x64x1024_S1x64x1024_0_0_0) (fun _ => rfl)).squeeze S64x1024 squeezes_S1x64x1024_S64x1024) := rfl
  ihave HR_v14 := (Entails.of_eq (pts_squeeze_slice c arg2 f2)) $$ H2
  ihave HR_v39 := (Entails.of_eq (pts_squeeze_slice c arg1 f1)) $$ H1
  sl_exec
  sl_step
  ihave H2 := (Entails.of_eq (pts_squeeze_slice c arg2 f2).symm) $$ HR_v14
  ihave H1 := (Entails.of_eq (pts_squeeze_slice c arg1 f1).symm) $$ HR_v39
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover_out _), View.canon_unit_zero off0]
  sl_unfold_words
  exact congrArg k0_pay4 (st_eq c i arg1 harg1 arg2 harg2 arg3 harg3 arg4 harg4 arg5 harg5 arg6 harg6 f1 f2 f3 f4 f5 lane hcanon_v14 hcanon_v39 k0_t1_loop.trips)

/-! ## The pipeline's proof data -/

variable (m : (ℓ : Loc nD τ sig) → Buf (Elt F) ℓ) (ρ : Dev nD → PrngReg)

/-- The proof data of the one pipeline on core `c`: the arrays as the region finds them; after the body at point `t`
    each input's buffer at its block and the result's at `OUT` of the five input blocks; nothing carried between
    points but what the launch hands every body; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (iblk m c 0 t) (iblk m c 1 t) (iblk m c 2 t) (iblk m c 3 t) (iblk m c 4 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = OUT (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; what is carried
    between points and the core's dues pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- THE FRAME: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.K

end
-- ==== Proof.KI.Trip.lean ====
/-
  The kernel's loop as a function of what its five input blocks read as.

  A block of the float input and of the type words is one batch: 64 positions of 1024 rows.  Trip `k` of the loop
  takes positions `2k` and `2k + 1`: for each, the row of type words, the row of inputs and the position's row of the
  two 64 × 256 position tables, and adds that position's term to the running sum (the first half-step's payload
  `k0_pay5`, then the second's `k0_pay3` over it).  `accV … n` is the running sum after `n` trips from zero, and
  `OUT` what the body stores: the sum after all trips, scaled.
-/
import proofs.«409822_j60859686584405_3_alg».proof.Proof.Gen.KernelIdeal.Skeleton
import Idealize.ShloMosaic.Lib.Pipeline.Value
import Idealize.ShloMosaic.Lib.Pipeline.FrameBody

noncomputable section

namespace Cert.Proof.KI

open Cert.KernelIdeal Cert.KernelIdeal.Gen
open Idealize.ShloMosaic

variable {F : FTy → Type} [FloatOps F]

/-- One batch of 64 positions as a 64 × 1024 array: the leading unit axis dropped. -/
def sq {e : EltTy} (x : Vec F S1x64x1024 e) : Vec F S64x1024 e :=
  shapeCast S64x1024 (View.ld x (Rect.unit (s := S1x64x1024) ![0, 0, 0] S1x64x1024.size inb_S1x64x1024_S1x64x1024_0_0_0)) (by decide)

/-- Position `2k + u`'s row of a 64 × 1024 array and of a 64 × 256 table, as the trip's loads cut them. -/
abbrev rRow (k : Fin k0_t1_loop.trips) (u : Fin 2) : Rect S64x1024 :=
  Rect.unit (s := S64x1024) (k0_off1 k (BitVec.ofNat 32 u.val)) S1x1024.size (k0_off1_inb k u)
abbrev rPos (k : Fin k0_t1_loop.trips) (u : Fin 2) : Rect S64x256 :=
  Rect.unit (s := S64x256) (k0_off2 k (BitVec.ofNat 32 u.val)) S1x256.size (k0_off2_inb k u)
/-- The whole 512 × 512 table. -/
abbrev rTab : Rect S512x512 := Rect.unit (s := S512x512) ![0, 0] S512x512.size inb_S512x512_S512x512_0_0

/-- Trip `k`: from the running sum `acc`, the two half-steps' payloads over positions `2k` and `2k + 1`. -/
def tripV (x1 : Vec F S1x64x1024 .f32) (x2 : Vec F S1x64x1024 .i32) (x3 : Vec F S512x512 .f32) (x4 x5 : Vec F S64x256 .f32)
    (v2 : IVec S1024x512 32) (k : Fin k0_t1_loop.trips) (acc : FVec F S1024x256 .f32) : FVec F S1024x256 .f32 :=
  k0_pay3 (View.ld x3 rTab)
    (k0_pay5 (k0_pay1 (View.ld x3 rTab)) v2 acc (View.ld (sq x2) (rRow k 0)) (View.ld x4 (rPos k 0)) (View.ld x5 (rPos k 0)) (View.ld (sq x1) (rRow k 0)))
    (k0_pay6 (View.ld (sq x2) (rRow k 1))) (View.ld x4 (rPos k 1)) (View.ld x5 (rPos k 1)) (View.ld (sq x1) (rRow k 1))

/-- The running sum after `n` trips, from the zero block; constant once the trips are exhausted. -/
def accV (x1 : Vec F S1x64x1024 .f32) (x2 : Vec F S1x64x1024 .i32) (x3 : Vec F S512x512 .f32) (x4 x5 : Vec F S64x256 .f32)
    (v2 : IVec S1024x512 32) : ℕ → FVec F S1024x256 .f32
  | 0 => k0_pay2
  | n + 1 => if h : n < k0_t1_loop.trips then tripV x1 x2 x3 x4 x5 v2 ⟨n, h⟩ (accV x1 x2 x3 x4 x5 v2 n) else accV x1 x2 x3 x4 x5 v2 n

theorem accV_succ (x1 : Vec F S1x64x1024 .f32) (x2 : Vec F S1x64x1024 .i32) (x3 : Vec F S512x512 .f32) (x4 x5 : Vec F S64x256 .f32)
    (v2 : IVec S1024x512 32) (k : Fin k0_t1_loop.trips) :
    accV x1 x2 x3 x4 x5 v2 (k.val + 1) = tripV x1 x2 x3 x4 x5 v2 k (accV x1 x2 x3 x4 x5 v2 k.val) := by
  rw [accV.eq_2]; exact dif_pos k.isLt

/-- The column numbers `0 … 511` along each of the 1024 rows, against which a row's type word is compared. -/
abbrev lane : IVec S1024x512 32 := iota .tc S1024x512 32 [1] iota_S1024x512_d1_w32

/-- What the body stores in the result's block: the sum after all the trips, scaled, as a 1 × 1024 × 256 block. -/
def OUT (x1 : Vec F S1x64x1024 .f32) (x2 : Vec F S1x64x1024 .i32) (x3 : Vec F S512x512 .f32) (x4 x5 : Vec F S64x256 .f32) :
    FVec F S1x1024x256 .f32 :=
  k0_pay4 (accV x1 x2 x3 x4 x5 lane k0_t1_loop.trips)

end Cert.Proof.KI

end
-- ==== Proof.KI.Run.lean ====
/-
  The kernel body's run, the pipeline's proof data and the frame run: the part of the frame that is the proof's,
  because the body's loop reads the two batch blocks through a view with the unit axis dropped.  For every float
  instance.

  * the two batch buffers, held whole, are held the same through that view (the view keeps the element set), which
    is how the loop's invariant holds them;
  * the trip the loop's run finds is `tripV` of what the buffers read as, so the value the loop carries after `n`
    trips is `accV … n`, and the body stores `OUT` of the five input blocks into the result's block;
  * the proof data: every input's buffer is left at its block, the result's at `OUT` of the input blocks.
-/
import proofs.«409822_j60859686584405_3_alg».proof.Proof.Gen.KernelIdeal.Frame
import proofs.«409822_j60859686584405_3_alg».proof.Proof.Gen.KernelIdeal.Loops
import Idealize.ShloMosaic.Lib.Pipeline.Value
import proofs.«409822_j60859686584405_3_alg».proof.Proof.KI.Trip

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ
abbrev 𝒱₀ : Variants := Variants.none

/-- A memref of one batch of 64 rows, held whole, is held the same through the squeeze of its whole slice (the view
    the loop's loads go through): the squeeze and the whole slice keep the element set. -/
theorem pts_squeeze_slice {e : EltTy} (c : Dev nD) (M : Memref sig .tc .vmem S1x64x1024 e)
    (f : BufTy.Contents (Elt F) M.view.ty) :
    (M.view.loc (c : Thread nD τ) ↦[M.view.set]{fullShare} f : sProp 𝕄)
      = (((M.slice (Rect.unit (s := S1x64x1024) ![0, 0, 0] S1x64x1024.size inb_S1x64x1024_S1x64x1024_0_0_0) (fun _ => rfl)).squeeze S64x1024 squeezes_S1x64x1024_S64x1024).view.loc (c : Thread nD τ)
          ↦[((M.slice (Rect.unit (s := S1x64x1024) ![0, 0, 0] S1x64x1024.size inb_S1x64x1024_S1x64x1024_0_0_0) (fun _ => rfl)).squeeze S64x1024 squeezes_S1x64x1024_S64x1024).view.set]{fullShare} f) := by
  have hu : (Rect.unit (s := S1x64x1024) ![0, 0, 0] S1x64x1024.size inb_S1x64x1024_S1x64x1024_0_0_0).set = Finset.univ :=
    Finset.eq_univ_iff_forall.mpr fun i => Rect.mem_set_unit.mpr fun a => by
      have h := (i a).isLt
      fin_cases a <;> exact ⟨Nat.zero_le _, by simpa using h⟩
  have hs : ((M.slice (Rect.unit (s := S1x64x1024) ![0, 0, 0] S1x64x1024.size inb_S1x64x1024_S1x64x1024_0_0_0) (fun _ => rfl)).squeeze S64x1024 squeezes_S1x64x1024_S64x1024).view.set = M.view.set := by
    rw [Memref.set_view_squeeze]
    show (M.view.slice _).set = _
    rw [View.set_slice, hu]; rfl
  exact congrArg (fun S => (M.view.loc (c : Thread nD τ) ↦[S]{fullShare} f : sProp 𝕄)) hs.symm

section Bufs

variable (c : Dev nD) (i : grid0.Coords) (arg1 : Memref sig .tc .vmem S1x64x1024 .f32) (harg1 : arg1.IsWhole) (arg2 : Memref sig .tc .vmem S1x64x1024 .i32) (harg2 : arg2.IsWhole) (arg3 : Memref sig .tc .vmem S512x512 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x1024x256 .f32) (harg6 : arg6.IsWhole)
  (f1 : BufTy.Contents (Elt F) arg1.view.ty) (f2 : BufTy.Contents (Elt F) arg2.view.ty) (f3 : BufTy.Contents (Elt F) arg3.view.ty)
  (f4 : BufTy.Contents (Elt F) arg4.view.ty) (f5 : BufTy.Contents (Elt F) arg5.view.ty) (v2 : IVec S1024x512 32)
  (h14 : ((arg2.slice (Rect.unit (s := S1x64x1024) ![0, 0, 0] S1x64x1024.size inb_S1x64x1024_S1x64x1024_0_0_0) (fun _ => rfl)).squeeze S64x1024 squeezes_S1x64x1024_S64x1024) = ((arg2.slice (Rect.unit (s := S1x64x1024) ![0, 0, 0] S1x64x1024.size inb_S1x64x1024_S1x64x1024_0_0_0) (fun _ => rfl)).squeeze S64x1024 squeezes_S1x64x1024_S64x1024)) (h39 : ((arg1.slice (Rect.unit (s := S1x64x1024) ![0, 0, 0] S1x64x1024.size inb_S1x64x1024_S1x64x1024_0_0_0) (fun _ => rfl)).squeeze S64x1024 squeezes_S1x64x1024_S64x1024) = ((arg1.slice (Rect.unit (s := S1x64x1024) ![0, 0, 0] S1x64x1024.size inb_S1x64x1024_S1x64x1024_0_0_0) (fun _ => rfl)).squeeze S64x1024 squeezes_S1x64x1024_S64x1024))

/-- The trip the run of the loop's region finds, at the buffers' contents, is `tripV` of what the buffers read as:
    the region's loads read positions `2k`, `2k + 1` through the views of the two batch buffers and off the two
    position tables, and its yield is the second half-step's payload over the first's. -/
theorem tripR_eq (k : Fin k0_t1_loop.trips) (acc : FVec F S1024x256 .f32) :
    tripR_k0_t1 (F := F) 𝒱₀ c none i arg1 harg1 arg2 harg2 arg3 harg3 arg4 harg4 arg5 harg5 arg6 harg6 (View.readAt (Elt F) arg3.view rTab.toLoadRect f3) v2 ((arg2.slice (Rect.unit (s := S1x64x1024) ![0, 0, 0] S1x64x1024.size inb_S1x64x1024_S1x64x1024_0_0_0) (fun _ => rfl)).squeeze S64x1024 squeezes_S1x64x1024_S64x1024) h14 ((arg1.slice (Rect.unit (s := S1x64x1024) ![0, 0, 0] S1x64x1024.size inb_S1x64x1024_S1x64x1024_0_0_0) (fun _ => rfl)).squeeze S64x1024 squeezes_S1x64x1024_S64x1024) h39 f4 f5 f2 f1 k acc = tripV (arg1.view.read (Elt F) f1) (arg2.view.read (Elt F) f2) (arg3.view.read (Elt F) f3) (arg4.view.read (Elt F) f4) (arg5.view.read (Elt F) f5) v2 k acc := by
  unfold tripR_k0_t1 trip_k0_t1
  dsimp only
  unfold trip_k0_t1.sl.r trip_k0_t1.sl.r_1
  rfl

/-- The value the loop carries after `n` trips from the zero block is `accV … n`. -/
theorem st_eq : ∀ n, st_k0_t1 (F := F) 𝒱₀ c none i arg1 harg1 arg2 harg2 arg3 harg3 arg4 harg4 arg5 harg5 arg6 harg6 (View.readAt (Elt F) arg3.view rTab.toLoadRect f3) v2 ((arg2.slice (Rect.unit (s := S1x64x1024) ![0, 0, 0] S1x64x1024.size inb_S1x64x1024_S1x64x1024_0_0_0) (fun _ => rfl)).squeeze S64x1024 squeezes_S1x64x1024_S64x1024) h14 ((arg1.slice (Rect.unit (s := S1x64x1024) ![0, 0, 0] S1x64x1024.size inb_S1x64x1024_S1x64x1024_0_0_0) (fun _ => rfl)).squeeze S64x1024 squeezes_S1x64x1024_S64x1024) h39 f4 f5 f2 f1 k0_pay2 n = accV (arg1.view.read (Elt F) f1) (arg2.view.read (Elt F) f2) (arg3.view.read (Elt F) f3) (arg4.view.read (Elt F) f4) (arg5.view.read (Elt F) f5) v2 n
  | 0 => rfl
  | n + 1 => by
    by_cases h : n < k0_t1_loop.trips
    · refine (st_k0_t1_succ (F := F) 𝒱₀ c none i arg1 harg1 arg2 harg2 arg3 harg3 arg4 harg4 arg5 harg5 arg6 harg6 (View.readAt (Elt F) arg3.view rTab.toLoadRect f3) v2 ((arg2.slice (Rect.unit (s := S1x64x1024) ![0, 0, 0] S1x64x1024.size inb_S1x64x1024_S1x64x1024_0_0_0) (fun _ => rfl)).squeeze S64x1024 squeezes_S1x64x1024_S64x1024) h14 ((arg1.slice (Rect.unit (s := S1x64x1024) ![0, 0, 0] S1x64x1024.size inb_S1x64x1024_S1x64x1024_0_0_0) (fun _ => rfl)).squeeze S64x1024 squeezes_S1x64x1024_S64x1024) h39 f4 f5 f2 f1 k0_pay2 ⟨n, h⟩).trans ?_
      refine Eq.trans ?_ (accV_succ (arg1.view.read (Elt F) f1) (arg2.view.read (Elt F) f2) (arg3.view.read (Elt F) f3) (arg4.view.read (Elt F) f4) (arg5.view.read (Elt F) f5) v2 ⟨n, h⟩).symm
      rw [tripR_eq]
      exact congrArg _ (st_eq n)
    · rw [st_k0_t1.eq_2, accV.eq_2]; unfold st_k0_t1Step; rw [dif_neg h, dif_neg h]; exact st_eq n

end Bufs

/-- The whole-block rectangle's offsets are zero. -/
theorem off0 : (![0, 0, 0] : Fin 3 → ℕ) = fun _ => 0 := funext fun a => by fin_cases a <;> rfl

/-- One store through the whole-block rectangle covers every index of the result's block. -/
theorem cover_out (w : Vec F S1x1024x256 .f32) (y : S1x1024x256.Idx) :
    ∃ pc ∈ ([⟨Rect.unit (s := S1x1024x256) ![0, 0, 0] S1x1024x256.size inb_S1x1024x256_S1x1024x256_0_0_0, w⟩] : List (View.Piece (Elt F) S1x1024x256 .f32)), y ∈ pc.1.set :=
  View.cover_of_tiled [⟨Rect.unit (s := S1x1024x256) ![0, 0, 0] S1x1024x256.size inb_S1x1024x256_S1x1024x256_0_0_0, w⟩] S1x1024x256.size (by rfl) y

/-! ## The body's triple -/

/-- The kernel body on whole staging memrefs, the five inputs' at read contents `x1 … x5`, the result's at anything,
    runs to the continuation holding the inputs' as they were and the result's at `OUT x1 … x5`: the table is loaded,
    the loop runs by its invariant (the two batch buffers handed to it through their views), and the scaled sum is
    stored over the whole block. -/
theorem sound_kernel (c : Dev nD) (i : grid0.Coords) (arg1 : Memref sig .tc .vmem S1x64x1024 .f32) (harg1 : arg1.IsWhole) (arg2 : Memref sig .tc .vmem S1x64x1024 .i32) (harg2 : arg2.IsWhole) (arg3 : Memref sig .tc .vmem S512x512 .f32) (harg3 : arg3.IsWhole) (arg4 : Memref sig .tc .vmem S64x256 .f32) (harg4 : arg4.IsWhole) (arg5 : Memref sig .tc .vmem S64x256 .f32) (harg5 : arg5.IsWhole) (arg6 : Memref sig .tc .vmem S1x1024x256 .f32) (harg6 : arg6.IsWhole)
    (x1 : Vec F S1x64x1024 .f32) (x2 : Vec F S1x64x1024 .i32) (x3 : Vec F S512x512 .f32) (x4 x5 : Vec F S64x256 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (OUT x1 x2 x3 x4 x5)) -∗ K ⟨⟩))
      ⊢ wp frame (wpE (defs₀ (F := F)) 𝒱₀ c none) Set.univ (cc0__kernel i arg1 harg1 arg2 harg2 arg3 harg3 arg4 harg4 arg5 harg5 arg6 harg6) K := by
  simp only [cc0__kernel_eq_skeleton]; unfold cc0__kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  have hcanon_v14 : ((arg2.slice (Rect.unit (s := S1x64x1024) ![0, 0, 0] S1x64x1024.size inb_S1x64x1024_S1x64x1024_0_0_0) (fun _ => rfl)).squeeze S64x1024 squeezes_S1x64x1024_S64x1024) = ((arg2.slice (Rect.unit (s := S1x64x1024) ![0, 0, 0] S1x64x1024.size inb_S1x64x1024_S1x64x1024_0_0_0) (fun _ => rfl)).squeeze S64x1024 squeezes_S1x64x1024_S64x1024) := rfl
  have hcanon_v39 : ((arg1.slice (Rect.unit (s := S1x64x1024) ![0, 0, 0] S1x64x1024.size inb_S1x64x1024_S1x64x1024_0_0_0) (fun _ => rfl)).squeeze S64x1024 squeezes_S1x64x1024_S64x1024) = ((arg1.slice (Rect.unit (s := S1x64x1024) ![0, 0, 0] S1x64x1024.size inb_S1x64x1024_S1x64x1024_0_0_0) (fun _ => rfl)).squeeze S64x1024 squeezes_S1x64x1024_S64x1024) := rfl
  ihave HR_v14 := (Entails.of_eq (pts_squeeze_slice c arg2 f2)) $$ H2
  ihave HR_v39 := (Entails.of_eq (pts_squeeze_slice c arg1 f1)) $$ H1
  sl_exec
  sl_step
  ihave H2 := (Entails.of_eq (pts_squeeze_slice c arg2 f2).symm) $$ HR_v14
  ihave H1 := (Entails.of_eq (pts_squeeze_slice c arg1 f1).symm) $$ HR_v39
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [View.read_writes_eq_canon _ _ _ (cover_out _), View.canon_unit_zero off0]
  sl_unfold_words
  exact congrArg k0_pay4 (st_eq c i arg1 harg1 arg2 harg2 arg3 harg3 arg4 harg4 arg5 harg5 arg6 harg6 f1 f2 f3 f4 f5 lane hcanon_v14 hcanon_v39 k0_t1_loop.trips)

/-! ## The pipeline's proof data -/

variable (m : (ℓ : Loc nD τ sig) → Buf (Elt F) ℓ) (ρ : Dev nD → PrngReg)

/-- The proof data of the one pipeline on core `c`: the arrays as the region finds them; after the body at point `t`
    each input's buffer at its block and the result's at `OUT` of the five input blocks; nothing carried between
    points but what the launch hands every body; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (iblk m c 0 t) (iblk m c 1 t) (iblk m c 2 t) (iblk m c 3 t) (iblk m c 4 t)
  Φ _ := ΦA spec0 c
  q _ := fullShare
  owed _ := 0

theorem A_eq (c : Dev nD) (w : Fin cfg0.W) : (dats m 0 c).A w = V m c (Pipeline.arrRef spec0 w) := rfl

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = OUT (iblk m c 0 t) (iblk m c 1 t) (iblk m c 2 t) (iblk m c 3 t) (iblk m c 4 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; what is carried
    between points and the core's dues pass through unread. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) 𝒱₀ () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- THE FRAME: the program runs to the end, faults nowhere, and leaves its four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Proof.KI

end
-- ==== Proof.KI.Blocks.lean ====
/-
  Each window's block at a grid point, read off the array the region finds.  Point `t` is batch `t`: the float
  input's and the type words' blocks are batch `t` of the transposed arrays; the table and the two position tables
  are taken whole at every point.
-/
import proofs.«409822_j60859686584405_3_alg».proof.Proof.Gen.KernelIdeal.Frame
import Idealize.ShloMosaic.Lib.ValueIdx
import Idealize.ShloMosaic.Lib.Pipeline.Value

noncomputable section

namespace Cert.Proof.KI

open Cert.KernelIdeal Cert.KernelIdeal.Gen
open Idealize.ShloMosaic

variable {F : FTy → Type} [FloatOps F]

open Idealize.ShloMosaic.ValueIdx Idealize.ShloMosaic.TcCoe Idealize.SL.Sem

variable (m : (ℓ : Loc nD τ sig) → Buf (Elt F) ℓ)

/-- A grid point is a batch number below 8. -/
theorem pt_lt (t : Fin cfg0.N) : t.val < 8 := by
  have h : t.val < grid0.N := t.isLt
  rw [N_0] at h; exact h

/-- The float input's block index at point `t`: `t` on the batch axis, 0 on the two others (checked at each of the 8 points). -/
private theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The float input's block at point `t`: batch `t` of the transposed input. -/
theorem iblk0_apply (c : Dev nD) (t : Fin cfg0.N) (j : Fin 64) (i : Fin 1024) :
    (iblk m c 0 t : S1x64x1024.Idx → Elt F .f32) (ix3 (0 : Fin 1) j i)
      = (V m c main_v5 : S8x64x1024.Idx → Elt F .f32) (ix3 (⟨t.val, pt_lt t⟩ : Fin 8) j i) := by
  -- the block reads the array at the block's embedding of the inner index; it is enough that the two indices agree
  show V m c main_v5 (((cfg0.win 0).blk t).view.emb (ix3 (0 : Fin 1) j i)) = V m c main_v5 (ix3 (⟨t.val, pt_lt t⟩ : Fin 8) j i)
  refine congrArg _ ?_
  -- per axis the embedded coordinate is (block index) × (block size) + 1 × (inner coordinate)
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 64 + 1 * j.val = j.val; omega
  | ⟨2, _⟩ => show win0_0.index t (2 : Fin 3) * 1024 + 1 * i.val = i.val; omega

/-- The type words' block index at point `t`: `t` on the batch axis, 0 on the two others. -/
private theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

/-- The type words' block at point `t`: batch `t` of the transposed type words. -/
theorem iblk1_apply (c : Dev nD) (t : Fin cfg0.N) (j : Fin 64) (i : Fin 1024) :
    (iblk m c 1 t : S1x64x1024.Idx → Elt F .i32) (ix3 (0 : Fin 1) j i)
      = (V m c main_v6 : S8x64x1024.Idx → Elt F .i32) (ix3 (⟨t.val, pt_lt t⟩ : Fin 8) j i) := by
  show V m c main_v6 (((cfg0.win 1).blk t).view.emb (ix3 (0 : Fin 1) j i)) = V m c main_v6 (ix3 (⟨t.val, pt_lt t⟩ : Fin 8) j i)
  refine congrArg _ ?_
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 64 + 1 * j.val = j.val; omega
  | ⟨2, _⟩ => show win0_1.index t (2 : Fin 3) * 1024 + 1 * i.val = i.val; omega

/-- The three whole-array windows sit at block index 0 on both axes at every point. -/
private theorem idx2 : ∀ t : Fin cfg0.N, win0_2.index t (0 : Fin 2) = 0 ∧ win0_2.index t (1 : Fin 2) = 0 :=
  (by decide +kernel : ∀ t : Fin grid0.N, _)
private theorem idx3 : ∀ t : Fin cfg0.N, win0_3.index t (0 : Fin 2) = 0 ∧ win0_3.index t (1 : Fin 2) = 0 :=
  (by decide +kernel : ∀ t : Fin grid0.N, _)
private theorem idx4 : ∀ t : Fin cfg0.N, win0_4.index t (0 : Fin 2) = 0 ∧ win0_4.index t (1 : Fin 2) = 0 :=
  (by decide +kernel : ∀ t : Fin grid0.N, _)

/-- The table's block is the whole table … -/
theorem iblk2_eq (c : Dev nD) (t : Fin cfg0.N) : (iblk m c 2 t : S512x512.Idx → Elt F .f32) = (V m c main_v4 : S512x512.Idx → Elt F .f32) := by
  -- block index 0 and a block as large as the array: the embedding is the identity
  funext y
  show V m c main_v4 (((cfg0.win 2).blk t).view.emb y) = V m c main_v4 y
  refine congrArg _ ?_
  obtain ⟨e0, e1⟩ := idx2 t
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- … and so are the two position tables'. -/
theorem iblk3_eq (c : Dev nD) (t : Fin cfg0.N) : (iblk m c 3 t : S64x256.Idx → Elt F .f32) = (V m c main_v2 : S64x256.Idx → Elt F .f32) := by
  funext y
  show V m c main_v2 (((cfg0.win 3).blk t).view.emb y) = V m c main_v2 y
  refine congrArg _ ?_
  obtain ⟨e0, e1⟩ := idx3 t
  funext a; apply Fin.ext
  match a with
  | ⟨0, _⟩ => show win0_3.index t (0 : Fin 2) * 64 + 1 * (y 0).val = (y 0).val; omega
  | ⟨1, _⟩ => show win0_3.index t (1 : Fin 2) * 256 + 1 * (y 1).val = (y 1).val; omega
theorem iblk4_eq (c : Dev nD) (t : Fin cfg0.N) : (iblk m c 4 t : S64x256.Idx → Elt F .f32) = (V m c main_v1 : S64x256.Idx → Elt F .f32) := by
  funext y
  show V m c main_v1 (((cfg0.win 4).blk t).view.emb y) = V m c main_v1 y
  refine congrArg _ ?_
  obtain ⟨e0, e1⟩ := idx4 t
  funext a; apply Fin.ext
  match a with
  | ⟨0, _⟩ => show win0_4.index t (0 : Fin 2) * 64 + 1 * (y 0).val = (y 0).val; omega
  | ⟨1, _⟩ => show win0_4.index t (1 : Fin 2) * 256 + 1 * (y 1).val = (y 1).val; omega

end Cert.Proof.KI

end
-- ==== Proof.KI.Loads.lean ====
/-
  The trip's loads at one element.  Position `2k + u`'s row of a batch, cut from the batch with its unit axis dropped,
  holds at row `i` the batch's element `(0, 2k + u, i)`; the same position's row of a 64 × 256 table holds at
  column `q` the table's element `(2k + u, q)`; the whole-table load is the table.
-/
import proofs.«409822_j60859686584405_3_alg».proof.Proof.KI.Trip
import Idealize.ShloMosaic.Lib.ValueIdx
import Idealize.ShloMosaic.Lib.ValueLayout

noncomputable section

namespace Cert.Proof.KI

open Cert.KernelIdeal Cert.KernelIdeal.Gen
open Idealize.ShloMosaic

variable {F : FTy → Type} [FloatOps F]

open Idealize.ShloMosaic.ValueIdx

/-- A trip's positions are below 64. -/
theorem pos_lt (k : Fin k0_t1_loop.trips) (u : Fin 2) : 2 * k.val + u.val < 64 := by
  have := k.isLt; have := k0_t1_abs.2.1; have := u.isLt; omega

/-- The batch with its unit axis dropped holds at `(a, i)` the batch's element `(0, a, i)`: the cut through the
    whole batch at zero offsets is the batch, and the reshape keeps the row-major position. -/
theorem sq_apply {e : EltTy} (x : Vec F S1x64x1024 e) (a : Fin 64) (i : Fin 1024) :
    sq x (ix2 a i) = x (ix3 (0 : Fin 1) a i) := by
  unfold sq
  refine (shapeCast_1ab_ab_apply _ _ a i).trans ?_
  exact congrFun (View.ld_unit_zero (by funext c; fin_cases c <;> rfl) _ x) _

/-- Where element `(0, i)` of position `2k + u`'s row sits in the 64 × 1024 array: at `(2k + u, i)`, the row's
    offsets being `(2k + u, 0)` and its strides 1. -/
theorem rRow_idx (k : Fin k0_t1_loop.trips) (u : Fin 2) (i : Fin 1024) :
    (rRow k u).idx (ix2 (0 : Fin 1) i) = ix2 (⟨2 * k.val + u.val, pos_lt k u⟩ : Fin 64) i := by
  funext c
  match c with
  | ⟨0, _⟩ =>
    refine Fin.ext ?_
    show k0_off1 k (BitVec.ofNat 32 u.val) 0 + 1 * 0 = 2 * k.val + u.val
    rw [k0_off1_eq k u]; rfl
  | ⟨1, _⟩ =>
    refine Fin.ext ?_
    show k0_off1 k (BitVec.ofNat 32 u.val) 1 + 1 * i.val = i.val
    rw [k0_off1_eq k u]
    show 0 + 1 * i.val = i.val
    omega

/-- The same in a 64 × 256 table. -/
theorem rPos_idx (k : Fin k0_t1_loop.trips) (u : Fin 2) (q : Fin 256) :
    (rPos k u).idx (ix2 (0 : Fin 1) q) = ix2 (⟨2 * k.val + u.val, pos_lt k u⟩ : Fin 64) q := by
  funext c
  match c with
  | ⟨0, _⟩ =>
    refine Fin.ext ?_
    show k0_off2 k (BitVec.ofNat 32 u.val) 0 + 1 * 0 = 2 * k.val + u.val
    rw [k0_off2_eq k u]; rfl
  | ⟨1, _⟩ =>
    refine Fin.ext ?_
    show k0_off2 k (BitVec.ofNat 32 u.val) 1 + 1 * q.val = q.val
    rw [k0_off2_eq k u]
    show 0 + 1 * q.val = q.val
    omega

/-- Row `i` of position `2k + u`'s row of a batch. -/
theorem ld_sq_row {e : EltTy} (x : Vec F S1x64x1024 e) (k : Fin k0_t1_loop.trips) (u : Fin 2) (i : Fin 1024) :
    View.ld (sq x) (rRow k u) (ix2 (0 : Fin 1) i) = x (ix3 (0 : Fin 1) (⟨2 * k.val + u.val, pos_lt k u⟩ : Fin 64) i) := by
  show sq x ((rRow k u).idx (ix2 (0 : Fin 1) i)) = _
  rw [rRow_idx k u i]
  exact sq_apply x _ i

/-- Column `q` of position `2k + u`'s row of a position table. -/
theorem ld_pos (x : Vec F S64x256 .f32) (k : Fin k0_t1_loop.trips) (u : Fin 2) (q : Fin 256) :
    View.ld x (rPos k u) (ix2 (0 : Fin 1) q) = x (ix2 (⟨2 * k.val + u.val, pos_lt k u⟩ : Fin 64) q) := by
  show x ((rPos k u).idx (ix2 (0 : Fin 1) q)) = _
  rw [rPos_idx k u q]

/-- The whole-table load is the table. -/
theorem ld_tab (x : Vec F S512x512 .f32) : View.ld x rTab = x :=
  View.ld_unit_zero (by funext c; fin_cases c <;> rfl) _ x

end Cert.Proof.KI

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.Spec.lean ====
/-
  What both programs compute, as one function of the four argument arrays.

  For a batch `b`, a row `i`, a column `k` the result is
      (∑ j : Fin 64, cos (x[b,i,j] · exp (E[t,k] + E[150+j,k]) + (P[t,k] + P[150+j,k]))) · (1/8),   t = ty[b,i,j],
  over the extended reals.  `GR` spells the exponential as the reference does, `exp (a + b)`; `GK` as the kernel
  does, `exp a · exp b`, the two factors taken from tables exponentiated beforehand.  On extended reals the two
  agree when `a` and `b` are real numbers, which is where the finiteness of the table `E` is used; nothing else
  in the comparison needs finiteness: the kernel selects row `t` of a table by a sum of 512 products with a 0/1
  indicator, and `0 · y = 0` for every extended real `y`; it adds the 64 terms two per step, and addition of extended
  reals is commutative and associative.
-/
import Idealize.ShloMosaic.PureOps.Ideal
import Idealize.ShloMosaic.PureOps.Ideal.Laws
import Idealize.ShloMosaic.Lib.ValueIdx
import proofs.«409822_j60859686584405_3_alg».proof.Proof.LibBlockedSum

noncomputable section

open scoped BigOperators

namespace Cert.Spec

open Idealize.ShloMosaic Idealize.ShloMosaic.ValueIdx

/-- The float input and the integer type input: batch × row × position. -/
abbrev SX : Shape := ⟨3, ![8, 1024, 64]⟩
/-- A table: 512 rows of 256 columns. -/
abbrev SE : Shape := ⟨2, ![512, 256]⟩
/-- The result: batch × row × column. -/
abbrev SO : Shape := ⟨3, ![8, 1024, 256]⟩

/-- The table row position `j` adds: `150 + j`. -/
def posRow (j : Fin 64) : Fin 512 := ⟨150 + j.val, by have := j.isLt; omega⟩

/-- The table row a type word selects (the word itself when it lies in `[0, 512)`). -/
def tyRow (t : BitVec 32) : Fin 512 := ⟨t.toNat % 512, Nat.mod_lt _ (by decide)⟩

theorem tyRow_val_of_lt {t : BitVec 32} (h : t.toNat < 512) : (tyRow t).val = t.toNat := Nat.mod_eq_of_lt h

/-- Position `j`'s term at `(b, i, k)`, the exponential of the SUM of the two table entries. -/
def termR (x : SX.Idx → EReal) (ty : SX.Idx → BitVec 32) (e p : SE.Idx → EReal)
    (b : Fin 8) (i : Fin 1024) (k : Fin 256) (j : Fin 64) : EReal :=
  Ideal.cos (x (ix3 b i j) * Ideal.exp (e (ix2 (tyRow (ty (ix3 b i j))) k) + e (ix2 (posRow j) k))
    + (p (ix2 (tyRow (ty (ix3 b i j))) k) + p (ix2 (posRow j) k)))

/-- The same term with the PRODUCT of the two entries' exponentials. -/
def termK (x : SX.Idx → EReal) (ty : SX.Idx → BitVec 32) (e p : SE.Idx → EReal)
    (b : Fin 8) (i : Fin 1024) (k : Fin 256) (j : Fin 64) : EReal :=
  Ideal.cos (x (ix3 b i j) * (Ideal.exp (e (ix2 (tyRow (ty (ix3 b i j))) k)) * Ideal.exp (e (ix2 (posRow j) k)))
    + (p (ix2 (tyRow (ty (ix3 b i j))) k) + p (ix2 (posRow j) k)))

/-- The result in the reference's arrangement, at explicit coordinates … -/
def GRat (x : SX.Idx → EReal) (ty : SX.Idx → BitVec 32) (e p : SE.Idx → EReal) (b : Fin 8) (i : Fin 1024) (k : Fin 256) : EReal :=
  (∑ j : Fin 64, termR x ty e p b i k j) * Ideal.ofBits .f32 0x3E000000#32
/-- … and as an array. -/
def GR (x : SX.Idx → EReal) (ty : SX.Idx → BitVec 32) (e p : SE.Idx → EReal) : SO.Idx → EReal :=
  fun o => GRat x ty e p (o 0) (o 1) (o 2)

/-- The result in the kernel's arrangement, at explicit coordinates … -/
def GKat (x : SX.Idx → EReal) (ty : SX.Idx → BitVec 32) (e p : SE.Idx → EReal) (b : Fin 8) (i : Fin 1024) (k : Fin 256) : EReal :=
  (∑ j : Fin 64, termK x ty e p b i k j) * Ideal.ofBits .f32 0x3E000000#32
/-- … and as an array. -/
def GK (x : SX.Idx → EReal) (ty : SX.Idx → BitVec 32) (e p : SE.Idx → EReal) : SO.Idx → EReal :=
  fun o => GKat x ty e p (o 0) (o 1) (o 2)

/-! ## The exponential of a sum of two reals -/

/-- On real numbers the extended exponential is multiplicative. -/
theorem exp_add_real (a b : ℝ) : Ideal.exp ((a : EReal) + (b : EReal)) = Ideal.exp (a : EReal) * Ideal.exp (b : EReal) := by
  rw [← EReal.coe_add, Ideal.exp_coe, Ideal.exp_coe, Ideal.exp_coe, Real.exp_add, EReal.coe_mul]

/-- With a table of real numbers the two arrangements of a term agree … -/
theorem termK_eq_termR (x : SX.Idx → EReal) (ty : SX.Idx → BitVec 32) (e p : SE.Idx → EReal)
    (he : ∀ i, ∃ r : ℝ, e i = (r : EReal)) (b : Fin 8) (i : Fin 1024) (k : Fin 256) (j : Fin 64) :
    termK x ty e p b i k j = termR x ty e p b i k j := by
  obtain ⟨r1, h1⟩ := he (ix2 (tyRow (ty (ix3 b i j))) k)
  obtain ⟨r2, h2⟩ := he (ix2 (posRow j) k)
  unfold termK termR
  rw [h1, h2, exp_add_real]

/-- … and so do the two arrangements of the result. -/
theorem GK_eq_GR (x : SX.Idx → EReal) (ty : SX.Idx → BitVec 32) (e p : SE.Idx → EReal)
    (he : ∀ i, ∃ r : ℝ, e i = (r : EReal)) : GK x ty e p = GR x ty e p := by
  funext o
  exact congrArg (fun s => s * Ideal.ofBits .f32 0x3E000000#32)
    (Finset.sum_congr rfl fun j _ => termK_eq_termR x ty e p he (o 0) (o 1) (o 2) j)

/-! ## Adding 64 terms two per step -/

/-- The running sum after `n` steps, each step adding the terms `2n` and `2n + 1` in that order, from zero;
    constant once the 32 steps are done. -/
def pairAcc (f : Fin 64 → EReal) : ℕ → EReal
  | 0 => 0
  | n + 1 => if h : n < 32 then (pairAcc f n + f ⟨2 * n, by omega⟩) + f ⟨2 * n + 1, by omega⟩ else pairAcc f n

theorem pairAcc_succ (f : Fin 64 → EReal) (n : ℕ) (h : n < 32) :
    pairAcc f (n + 1) = (pairAcc f n + f ⟨2 * n, by omega⟩) + f ⟨2 * n + 1, by omega⟩ := by
  rw [pairAcc]; exact dif_pos h

/-- What step `a` adds: the terms `2a` and `2a + 1`. -/
def pairG (f : Fin 64 → EReal) (a : Fin 32) : EReal :=
  f ⟨2 * a.val, by have := a.isLt; omega⟩ + f ⟨2 * a.val + 1, by have := a.isLt; omega⟩

/-- After step `k` (counted from 0) the running sum is the sum of what the steps `0, …, k` add. -/
theorem pairAcc_upto (f : Fin 64 → EReal) :
    ∀ (k : ℕ) (_ : k < 32), pairAcc f (k + 1) = Cert.LibBlockedSum.upto 32 (pairG f) k
  | 0, h => by
    have h0 : pairAcc f 0 = 0 := by rw [pairAcc]
    rw [pairAcc_succ f 0 h, h0, zero_add, Cert.LibBlockedSum.upto_zero 32 (pairG f) (by omega)]
    rfl
  | k + 1, h => by
    rw [pairAcc_succ f (k + 1) h, pairAcc_upto f k (by omega), add_assoc,
      Cert.LibBlockedSum.upto_succ 32 (pairG f) k h]
    rfl

/-- After the 32 steps the running sum is the sum of the 64 terms. -/
theorem pairAcc_32 (f : Fin 64 → EReal) : pairAcc f 32 = ∑ j : Fin 64, f j := by
  show pairAcc f (31 + 1) = _
  rw [pairAcc_upto f 31 (by omega), Cert.LibBlockedSum.upto_last 32 (pairG f) 31 (by omega),
    Cert.LibBlockedSum.sum_blocks 32 2 (by norm_num) f]
  refine Finset.sum_congr rfl fun a _ => ?_
  rw [Fin.sum_univ_two]
  unfold pairG
  have e0 : Cert.LibBlockedSum.blockIdx 32 2 (by norm_num) a 0
      = (⟨2 * a.val, by have := a.isLt; omega⟩ : Fin 64) :=
    Fin.ext (by show a.val * 2 + 0 = 2 * a.val; omega)
  have e1 : Cert.LibBlockedSum.blockIdx 32 2 (by norm_num) a 1
      = (⟨2 * a.val + 1, by have := a.isLt; omega⟩ : Fin 64) :=
    Fin.ext (by show a.val * 2 + 1 = 2 * a.val + 1; omega)
  rw [e0, e1]

end Cert.Spec

end
-- ==== Proof.KTerm.lean ====
/-
  The kernel's arithmetic at one element, over the extended reals.

  One half-step of the loop adds to the running sum, at row `i` and column `k`,
      cos (x · (T[t, k] · ep) + (T[t, 256 + k] + pp))
  where `t` is row `i`'s type word, `T` the 512 × 512 table, and `T[t, ·]` is what the product of the 0/1
  indicator row `(t = 0), (t = 1), …, (t = 511)` with `T` selects: a sum of 512 terms of which at most one is not
  `0 · y = 0`.
-/
import proofs.«409822_j60859686584405_3_alg».proof.Proof.Gen.KernelIdeal.Skeleton
import proofs.«409822_j60859686584405_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.KTerm

open Cert.KernelIdeal Cert.KernelIdeal.Gen Idealize.ShloMosaic Idealize.ShloMosaic.ValueIdx

/-- One half-step's term: `t` the type word, `x` the input, `ep`, `pp` the position's two entries, `k` the column. -/
def kstep (T : FVec Ideal S512x512 .f32) (t : BitVec 32) (x ep pp : EReal) (k : Fin 256) : EReal :=
  Ideal.cos (x * (T (ix2 (Cert.Spec.tyRow t) (⟨k.val, by have := k.isLt; omega⟩ : Fin 512)) * ep)
    + (T (ix2 (Cert.Spec.tyRow t) (⟨256 + k.val, by have := k.isLt; omega⟩ : Fin 512)) + pp))

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 0/1 indicator of `t = q` as a real number: the comparison's bit, widened and read as an integer. -/
theorem indicator_eq (t : BitVec 32) (q : Fin 512) :
    ((((IntOp.cmpi .eq t (BitVec.ofNat 32 q.val)).setWidth 32).toInt : ℝ) : EReal) = if t.toNat = q.val then 1 else 0 := by
  have hq : q.val < 2 ^ 32 := by have := q.isLt; omega
  by_cases h : t.toNat = q.val
  · have ht : t = BitVec.ofNat 32 q.val := by
      apply BitVec.eq_of_toNat_eq; rw [BitVec.toNat_ofNat, Nat.mod_eq_of_lt hq]; exact h
    rw [if_pos h, ← ht]
    have : IntOp.cmpi .eq t t = 1#1 := by simp [IntOp.cmpi]
    rw [this]
    have : ((1#1).setWidth 32).toInt = 1 := by decide
    rw [this]; simp
  · have ht : ¬ t = BitVec.ofNat 32 q.val := by
      intro e; apply h; rw [e, BitVec.toNat_ofNat, Nat.mod_eq_of_lt hq]
    rw [if_neg h]
    have hb : (t == BitVec.ofNat 32 q.val) = false := beq_eq_false_iff_ne.mpr ht
    have : IntOp.cmpi .eq t (BitVec.ofNat 32 q.val) = 0#1 := by
      show BitVec.ofBool (t == BitVec.ofNat 32 q.val) = 0#1
      rw [hb]; rfl
    rw [this]
    have : ((0#1).setWidth 32).toInt = 0 := by decide
    rw [this]; simp

/-- The second half-step's type words are the loaded row. -/
theorem pay6_apply (v53 : Vec Ideal S1x1024 .i32) (i : Fin 1024) : k0_pay6 (F := Ideal) v53 (ix1 i) = v53 (ix2 (0 : Fin 1) i) := by
  unfold k0_pay6
  exact shapeCast_1a_a_apply v53 _ i

/-- The table is used as loaded. -/
theorem pay1_eq (v0 : Vec Ideal S512x512 .f32) : k0_pay1 (F := Ideal) v0 = v0 := by
  unfold k0_pay1
  exact shapeCast_self v0 _

/-- The running sum starts at zero. -/
theorem pay2_apply (j : S1024x256.Idx) : k0_pay2 (F := Ideal) j = 0 := by
  unfold k0_pay2
  exact Ideal.ofBits_zero_f32

/-- The stored block is the running sum times 1/8. -/
theorem pay4_apply (v5 : FVec Ideal S1024x256 .f32) (i : Fin 1024) (k : Fin 256) :
    k0_pay4 (F := Ideal) v5 (ix3 (0 : Fin 1) i k) = v5 (ix2 i k) * Ideal.ofBits .f32 0x3E000000#32 := by
  unfold k0_pay4
  refine (shapeCast_ab_1ab_apply _ _ (0 : Fin 1) i k).trans ?_
  rfl

/-- Of the 512 products `(t = q) · T[q, c]` only the one at `q = t` is not `0 · y = 0`: the sum is `T[t, c]`. -/
theorem select_row (T : FVec Ideal S512x512 .f32) (t : BitVec 32) (hr : t.toNat < 512) (c : Fin 512) :
    ∑ q : Fin 512, ((((IntOp.cmpi .eq t (BitVec.ofNat 32 q.val)).setWidth 32).toInt : ℝ) : EReal) * T (ix2 q c)
      = T (ix2 (Cert.Spec.tyRow t) c) := by
  rw [Finset.sum_eq_single (Cert.Spec.tyRow t)]
  · rw [indicator_eq, if_pos (Cert.Spec.tyRow_val_of_lt hr).symm, one_mul]
  · intro q _ hq
    rw [indicator_eq, if_neg, zero_mul]
    intro e
    exact hq (Fin.ext (e.symm.trans (Cert.Spec.tyRow_val_of_lt hr).symm))
  · intro h; exact absurd (Finset.mem_univ _) h

/-! ### The product's two index maps, coordinate by coordinate -/

theorem lhs_dot_0 (j : S1024x512.Idx) (k : dot_S1024x512_S512x512_S1024x512_1_0_0_1_n_n.contr.Idx) :
    (dot_S1024x512_S512x512_S1024x512_1_0_0_1_n_n.lhsIdx j k 0 : ℕ) = j 0 := by
  simp [DotDims.lhsIdx, dot_S1024x512_S512x512_S1024x512_1_0_0_1_n_n]; rfl
theorem lhs_dot_1 (j : S1024x512.Idx) (k : dot_S1024x512_S512x512_S1024x512_1_0_0_1_n_n.contr.Idx) :
    (dot_S1024x512_S512x512_S1024x512_1_0_0_1_n_n.lhsIdx j k 1 : ℕ) = k ⟨0, by decide⟩ := by
  simp [DotDims.lhsIdx, dot_S1024x512_S512x512_S1024x512_1_0_0_1_n_n]; rfl
theorem rhs_dot_0 (j : S1024x512.Idx) (k : dot_S1024x512_S512x512_S1024x512_1_0_0_1_n_n.contr.Idx) :
    (dot_S1024x512_S512x512_S1024x512_1_0_0_1_n_n.rhsIdx j k 0 : ℕ) = k ⟨0, by decide⟩ := by
  simp [DotDims.rhsIdx, dot_S1024x512_S512x512_S1024x512_1_0_0_1_n_n]; rfl
theorem rhs_dot_1 (j : S1024x512.Idx) (k : dot_S1024x512_S512x512_S1024x512_1_0_0_1_n_n.contr.Idx) :
    (dot_S1024x512_S512x512_S1024x512_1_0_0_1_n_n.rhsIdx j k 1 : ℕ) = j 1 := by
  simp [DotDims.rhsIdx, dot_S1024x512_S512x512_S1024x512_1_0_0_1_n_n]; rfl

/-- The product into a zero accumulator, at `(i, c)`, is the sum over the 512 contracted positions. -/
theorem matmul_dot_apply (A : FVec Ideal S1024x512 .f32) (B : FVec Ideal S512x512 .f32) (i : Fin 1024) (c : Fin 512) :
    matmul dot_S1024x512_S512x512_S1024x512_1_0_0_1_n_n (some .fp32) A B (constant (F := Ideal) S1024x512 .f32 0x00000000#32) (ix2 i c)
      = ∑ q : Fin 512, A (ix2 i q) * B (ix2 q c) := by
  refine (Ideal.matmul_constant_zero_apply _ _ A B (ix2 i c)).trans ?_
  rw [← Equiv.sum_comp (contrEquiv1 dot_S1024x512_S512x512_S1024x512_1_0_0_1_n_n 512 rfl rfl).symm]
  refine Finset.sum_congr rfl fun q _ => ?_
  have hl : dot_S1024x512_S512x512_S1024x512_1_0_0_1_n_n.lhsIdx (ix2 i c) ((contrEquiv1 dot_S1024x512_S512x512_S1024x512_1_0_0_1_n_n 512 rfl rfl).symm q) = ix2 i q :=
    Shape.idx_ext₂ (lhs_dot_0 _ _) ((lhs_dot_1 _ _).trans (contrEquiv1_symm_val dot_S1024x512_S512x512_S1024x512_1_0_0_1_n_n 512 rfl rfl q))
  have hrr : dot_S1024x512_S512x512_S1024x512_1_0_0_1_n_n.rhsIdx (ix2 i c) ((contrEquiv1 dot_S1024x512_S512x512_S1024x512_1_0_0_1_n_n 512 rfl rfl).symm q) = ix2 q c :=
    Shape.idx_ext₂ ((rhs_dot_0 _ _).trans (contrEquiv1_symm_val dot_S1024x512_S512x512_S1024x512_1_0_0_1_n_n 512 rfl rfl q)) (rhs_dot_1 _ _)
  rw [hl, hrr]

/-- The indicator rows times the table: row `i` of the product is the table's row `t`, `t` row `i`'s type word. -/
theorem table_row (T : FVec Ideal S512x512 .f32) (tw : IVec S1024x512 32) (i : Fin 1024) (t : BitVec 32)
    (htw : ∀ q : Fin 512, tw (ix2 i q) = t) (hr : t.toNat < 512) (c : Fin 512) :
    matmul dot_S1024x512_S512x512_S1024x512_1_0_0_1_n_n (some .fp32)
      (sitofp .f32 (extui 32 (cmpi .eq tw (iota .tc S1024x512 32 [1] iota_S1024x512_d1_w32)) natLt_1_32) : FVec Ideal S1024x512 .f32)
      T (constant (F := Ideal) S1024x512 .f32 0x00000000#32) (ix2 i c) = T (ix2 (Cert.Spec.tyRow t) c) := by
  rw [matmul_dot_apply, ← select_row T t hr c]
  refine Finset.sum_congr rfl fun q _ => ?_
  congr 1
  show ((((IntOp.cmpi .eq (tw (ix2 i q)) (iota .tc S1024x512 32 [1] iota_S1024x512_d1_w32 (ix2 i q))).setWidth 32).toInt : ℝ) : EReal) = _
  rw [htw q, iota_single_apply]

/-- One half-step at one element, from what its five operands are there. -/
theorem step_at (acc X A B C D : FVec Ideal S1024x256 .f32) (j : S1024x256.Idx) (x a b c d : EReal)
    (hX : X j = x) (hA : A j = a) (hB : B j = b) (hC : C j = c) (hD : D j = d) :
    addf acc (cos (addf (mulf X (mulf A B)) (addf C D))) j = acc j + Ideal.cos (x * (a * b) + (c + d)) := by
  show acc j + Ideal.cos (X j * (A j * B j) + (C j + D j)) = _
  rw [hX, hA, hB, hC, hD]

/-- A row `[1, 1024]` made a column and spread over the columns reads, at `(i, k)`, the row's entry `i`. -/
theorem column_apply {α : Type} {b : ℕ} (v : (⟨2, ![1, 1024]⟩ : Shape).Idx → α)
    (h1 : (⟨2, ![1, 1024]⟩ : Shape).ShapeCasts ⟨1, ![1024]⟩) (h2 : (⟨1, ![1024]⟩ : Shape).ShapeCasts ⟨2, ![1024, 1]⟩)
    (h3 : (⟨2, ![1024, 1]⟩ : Shape).Broadcasts ⟨2, ![1024, b]⟩) (i : Fin 1024) (k : Fin b) :
    broadcastTo ⟨2, ![1024, b]⟩ (shapeCast ⟨2, ![1024, 1]⟩ (shapeCast ⟨1, ![1024]⟩ v h1) h2) h3 (ix2 i k) = v (ix2 (0 : Fin 1) i) :=
  (broadcastTo_a1_ab_apply _ h3 i k).trans ((shapeCast_a_a1_apply _ h2 i 0).trans (shapeCast_1a_a_apply v h1 i))

/-- A row `[1, 256]` flattened, made a row again and spread over the rows reads, at `(i, k)`, the row's entry `k`. -/
theorem row_apply {α : Type} (v : (⟨2, ![1, 256]⟩ : Shape).Idx → α)
    (h1 : (⟨2, ![1, 256]⟩ : Shape).ShapeCasts ⟨1, ![256]⟩) (h2 : (⟨1, ![256]⟩ : Shape).ShapeCasts ⟨2, ![1, 256]⟩)
    (h3 : (⟨2, ![1, 256]⟩ : Shape).Broadcasts ⟨2, ![1024, 256]⟩) (i : Fin 1024) (k : Fin 256) :
    broadcastTo ⟨2, ![1024, 256]⟩ (shapeCast ⟨2, ![1, 256]⟩ (shapeCast ⟨1, ![256]⟩ v h1) h2) h3 (ix2 i k) = v (ix2 (0 : Fin 1) k) :=
  (broadcastTo_1b_ab_apply _ h3 i k).trans ((shapeCast_a_1a_apply _ h2 0 k).trans (shapeCast_1a_a_apply v h1 k))

/-- The first half-step's payload at `(i, k)`. -/
theorem pay5_apply (v1 : FVec Ideal S512x512 .f32) (acc : FVec Ideal S1024x256 .f32) (v16 : Vec Ideal S1x1024 .i32)
    (v27 v30 : Vec Ideal S1x256 .f32) (v41 : Vec Ideal S1x1024 .f32) (i : Fin 1024) (k : Fin 256)
    (hr : (v16 (ix2 (0 : Fin 1) i)).toNat < 512) :
    k0_pay5 (F := Ideal) v1 (iota .tc S1024x512 32 [1] iota_S1024x512_d1_w32) acc v16 v27 v30 v41 (ix2 i k)
      = acc (ix2 i k) + kstep v1 (v16 (ix2 (0 : Fin 1) i)) (v41 (ix2 (0 : Fin 1) i)) (v27 (ix2 (0 : Fin 1) k)) (v30 (ix2 (0 : Fin 1) k)) k := by
  have hk0 : k.val < 512 := by have := k.isLt; omega
  have hk1 : 256 + k.val < 512 := by have := k.isLt; omega
  unfold k0_pay5 kstep
  dsimp only
  refine step_at _ _ _ _ _ _ (ix2 i k) _ _ _ _ _ ?_ ?_ ?_ ?_ ?_
  · exact column_apply v41 _ _ _ i k
  · exact (slice2_axis1_apply 0 _ _ i k ⟨k.val, hk0⟩ (Nat.zero_add _).symm).trans
      (table_row v1 _ i _ (fun q => column_apply v16 _ _ _ i q) hr _)
  · exact row_apply v27 _ _ _ i k
  · exact (slice2_axis1_apply 256 _ _ i k ⟨256 + k.val, hk1⟩ rfl).trans
      (table_row v1 _ i _ (fun q => column_apply v16 _ _ _ i q) hr _)
  · exact row_apply v30 _ _ _ i k

/-- The second half-step's payload at `(i, k)`. -/
theorem pay3_apply (v0 : Vec Ideal S512x512 .f32) (v48 : FVec Ideal S1024x256 .f32) (v54 : IVec S1024 32)
    (v64 v67 : Vec Ideal S1x256 .f32) (v78 : Vec Ideal S1x1024 .f32) (i : Fin 1024) (k : Fin 256)
    (hr : (v54 (ix1 i)).toNat < 512) :
    k0_pay3 (F := Ideal) v0 v48 v54 v64 v67 v78 (ix2 i k)
      = v48 (ix2 i k) + kstep v0 (v54 (ix1 i)) (v78 (ix2 (0 : Fin 1) i)) (v64 (ix2 (0 : Fin 1) k)) (v67 (ix2 (0 : Fin 1) k)) k := by
  have hk0 : k.val < 512 := by have := k.isLt; omega
  have hk1 : 256 + k.val < 512 := by have := k.isLt; omega
  have htw : ∀ q : Fin 512, broadcastTo S1024x512 (shapeCast S1024x1 v54 shapeCasts_S1024_S1024x1) broadcasts_S1024x1_S1024x512 (ix2 i q)
      = v54 (ix1 i) := fun q => (broadcastTo_a1_ab_apply _ _ i q).trans (shapeCast_a_a1_apply v54 _ i 0)
  unfold k0_pay3 kstep
  dsimp only
  rw [pay1_eq]
  refine step_at _ _ _ _ _ _ (ix2 i k) _ _ _ _ _ ?_ ?_ ?_ ?_ ?_
  · exact column_apply v78 _ _ _ i k
  · exact (slice2_axis1_apply 0 _ _ i k ⟨k.val, hk0⟩ (Nat.zero_add _).symm).trans (table_row v0 _ i _ htw hr _)
  · exact row_apply v64 _ _ _ i k
  · exact (slice2_axis1_apply 256 _ _ i k ⟨256 + k.val, hk1⟩ rfl).trans (table_row v0 _ i _ htw hr _)
  · exact row_apply v67 _ _ _ i k

end Cert.Proof.KTerm

end
-- ==== Proof.KI.BlockValue.lean ====
/-
  The block the body stores, at one element, over the extended reals: at row `i` and column `q` it is the sum over the
  64 positions `j` of that position's term — `cos (x[j,i] · (T[t,q] · ep[j,q]) + (T[t,256+q] + pp[j,q]))`, `t` the
  type word at `(j, i)` — times 1/8.  The loop adds the terms two per trip in order, which is the same sum.
-/
import proofs.«409822_j60859686584405_3_alg».proof.Proof.KI.Trip
import proofs.«409822_j60859686584405_3_alg».proof.Proof.KI.Loads
import proofs.«409822_j60859686584405_3_alg».proof.Proof.KTerm
import proofs.«409822_j60859686584405_3_alg».proof.Proof.Spec
import Idealize.ShloMosaic.Lib.ValueIdx

noncomputable section

namespace Cert.Proof.KI

open Cert.KernelIdeal Cert.KernelIdeal.Gen
open Idealize.ShloMosaic

variable {F : FTy → Type} [FloatOps F]

open Idealize.ShloMosaic.ValueIdx
open scoped BigOperators

/-- Position `j`'s term of the block's element `(i, q)`. -/
def blockTerm (x1 : Vec Ideal S1x64x1024 .f32) (x2 : Vec Ideal S1x64x1024 .i32) (x3 : Vec Ideal S512x512 .f32) (x4 x5 : Vec Ideal S64x256 .f32)
    (i : Fin 1024) (q : Fin 256) (j : Fin 64) : EReal :=
  Cert.Proof.KTerm.kstep x3 (x2 (ix3 (0 : Fin 1) j i)) (x1 (ix3 (0 : Fin 1) j i)) (x4 (ix2 j q)) (x5 (ix2 j q)) q

/-- The loop makes 32 trips. -/
theorem trips_eq : k0_t1_loop.trips = 32 := by decide

/-- One trip at an element: the running sum there plus the terms of positions `2k` and `2k + 1`, in that order. -/
theorem tripV_apply (x1 : Vec Ideal S1x64x1024 .f32) (x2 : Vec Ideal S1x64x1024 .i32) (x3 : Vec Ideal S512x512 .f32) (x4 x5 : Vec Ideal S64x256 .f32)
    (hty : ∀ y, (x2 y).toNat < 512) (k : Fin k0_t1_loop.trips) (acc : FVec Ideal S1024x256 .f32) (i : Fin 1024) (q : Fin 256) :
    tripV (F := Ideal) x1 x2 x3 x4 x5 lane k acc (ix2 i q)
      = (acc (ix2 i q) + blockTerm x1 x2 x3 x4 x5 i q ⟨2 * k.val + (0 : Fin 2).val, pos_lt k 0⟩)
          + blockTerm x1 x2 x3 x4 x5 i q ⟨2 * k.val + (1 : Fin 2).val, pos_lt k 1⟩ := by
  have h6 : k0_pay6 (F := Ideal) (View.ld (sq x2) (rRow k 1)) (ix1 i) = x2 (ix3 (0 : Fin 1) (⟨2 * k.val + (1 : Fin 2).val, pos_lt k 1⟩ : Fin 64) i) :=
    (Cert.Proof.KTerm.pay6_apply _ i).trans (ld_sq_row x2 k 1 i)
  have h16 : View.ld (sq x2) (rRow k 0) (ix2 (0 : Fin 1) i) = x2 (ix3 (0 : Fin 1) (⟨2 * k.val + (0 : Fin 2).val, pos_lt k 0⟩ : Fin 64) i) :=
    ld_sq_row x2 k 0 i
  unfold tripV
  refine (Cert.Proof.KTerm.pay3_apply (View.ld x3 rTab) _ (k0_pay6 (View.ld (sq x2) (rRow k 1))) (View.ld x4 (rPos k 1)) (View.ld x5 (rPos k 1))
    (View.ld (sq x1) (rRow k 1)) i q (by rw [h6]; exact hty _)).trans ?_
  rw [Cert.Proof.KTerm.pay5_apply (k0_pay1 (View.ld x3 rTab)) acc (View.ld (sq x2) (rRow k 0)) (View.ld x4 (rPos k 0)) (View.ld x5 (rPos k 0))
    (View.ld (sq x1) (rRow k 0)) i q (by rw [h16]; exact hty _)]
  rw [h6, h16, Cert.Proof.KTerm.pay1_eq, ld_tab, ld_sq_row x1 k 0 i, ld_sq_row x1 k 1 i, ld_pos x4 k 0 q, ld_pos x4 k 1 q, ld_pos x5 k 0 q, ld_pos x5 k 1 q]
  rfl

/-- The running sum after `n ≤ 32` trips, at an element, is the pairwise running sum of the terms. -/
theorem accV_apply (x1 : Vec Ideal S1x64x1024 .f32) (x2 : Vec Ideal S1x64x1024 .i32) (x3 : Vec Ideal S512x512 .f32) (x4 x5 : Vec Ideal S64x256 .f32)
    (hty : ∀ y, (x2 y).toNat < 512) (i : Fin 1024) (q : Fin 256) (n : ℕ) (hn : n ≤ 32) :
    accV (F := Ideal) x1 x2 x3 x4 x5 lane n (ix2 i q) = Cert.Spec.pairAcc (blockTerm x1 x2 x3 x4 x5 i q) n := by
  induction n with
  | zero =>
    show k0_pay2 (F := Ideal) (ix2 i q) = _
    rw [Cert.Proof.KTerm.pay2_apply, Cert.Spec.pairAcc]
  | succ n ih =>
    have hn' : n < 32 := by omega
    have hk : n < k0_t1_loop.trips := by rw [trips_eq]; exact hn'
    have e := accV_succ (F := Ideal) x1 x2 x3 x4 x5 lane ⟨n, hk⟩
    rw [show ((⟨n, hk⟩ : Fin k0_t1_loop.trips).val + 1) = n + 1 from rfl, show (⟨n, hk⟩ : Fin k0_t1_loop.trips).val = n from rfl] at e
    rw [e, tripV_apply x1 x2 x3 x4 x5 hty ⟨n, hk⟩ _ i q, ih (by omega), Cert.Spec.pairAcc_succ _ n hn']
    rfl

/-- The stored block at an element. -/
theorem OUT_apply (x1 : Vec Ideal S1x64x1024 .f32) (x2 : Vec Ideal S1x64x1024 .i32) (x3 : Vec Ideal S512x512 .f32) (x4 x5 : Vec Ideal S64x256 .f32)
    (hty : ∀ y, (x2 y).toNat < 512) (i : Fin 1024) (q : Fin 256) :
    OUT (F := Ideal) x1 x2 x3 x4 x5 (ix3 (0 : Fin 1) i q)
      = (∑ j : Fin 64, blockTerm x1 x2 x3 x4 x5 i q j) * Ideal.ofBits .f32 0x3E000000#32 := by
  unfold OUT
  rw [Cert.Proof.KTerm.pay4_apply, trips_eq, accV_apply x1 x2 x3 x4 x5 hty i q 32 (le_refl _), Cert.Spec.pairAcc_32]

end Cert.Proof.KI

end
-- ==== Proof.HostReads.lean ====
/-
  The arrays the kernel's windows are cut from, as the host operations before the launch leave them, index by index:
  the float input and the type words with their last two axes exchanged, the 512 × 512 table whose left half is the
  exponential of the first table and whose right half is the second table, and the 64 position rows `150 … 213` of the
  first table, exponentiated, and of the second.
-/
import proofs.«409822_j60859686584405_3_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.Proof.HostReads

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-! ## The arrays as terms of the launched contents -/

/-- The transposed float input, as a term. -/
theorem V_v5_term (c : Dev nD) :
    (V m c main_v5 : S8x64x1024.Idx → EReal)
      = transpose S8x64x1024 [0, 2, 1] (m ((c : Thread nD τ).loc main_arg0) : S8x1024x64.Idx → EReal) transposes_S8x1024x64_S8x64x1024_0_2_1 := by
  dsimp only [V, hostOps0]
  after_results

/-- The transposed type words, as a term. -/
theorem V_v6_term (c : Dev nD) :
    (V m c main_v6 : S8x64x1024.Idx → BitVec 32)
      = transpose S8x64x1024 [0, 2, 1] (m ((c : Thread nD τ).loc main_arg1) : S8x1024x64.Idx → BitVec 32) transposes_S8x1024x64_S8x64x1024_0_2_1 := by
  dsimp only [V, hostOps0]
  after_results

/-- The 512 × 512 table, as a term. -/
theorem V_v4_term (c : Dev nD) :
    (V m c main_v4 : S512x512.Idx → EReal)
      = concatenate S512x512 1 [⟨S512x256, (Host.exp (F := Ideal) (s := S512x256) (φ := .f32) (m ((c : Thread nD τ).loc main_arg2)) : S512x256.Idx → EReal)⟩,
          ⟨S512x256, (m ((c : Thread nD τ).loc main_arg3) : S512x256.Idx → EReal)⟩] concatenates_S512x256_S512x256_S512x512_d1 := by
  dsimp only [V, hostOps0]
  after_results

/-- The position rows of the first table, exponentiated, as a term. -/
theorem V_v2_term (c : Dev nD) :
    (V m c main_v2 : S64x256.Idx → EReal)
      = (Host.exp (F := Ideal) (s := S64x256) (φ := .f32) (extractStridedSlice S64x256 ![150, 0] (m ((c : Thread nD τ).loc main_arg2) : S512x256.Idx → EReal) slices_S512x256_S64x256_150_0) : S64x256.Idx → EReal) := by
  dsimp only [V, hostOps0]
  after_results

/-- The position rows of the second table, as a term. -/
theorem V_v1_term (c : Dev nD) :
    (V m c main_v1 : S64x256.Idx → EReal)
      = extractStridedSlice S64x256 ![150, 0] (m ((c : Thread nD τ).loc main_arg3) : S512x256.Idx → EReal) slices_S512x256_S64x256_150_0 := by
  dsimp only [V, hostOps0]
  after_results

/-! ## The arrays read at an index -/

/-- The transposed float input. -/
theorem V_v5_apply (c : Dev nD) (b : Fin 8) (j : Fin 64) (i : Fin 1024) :
    (V m c main_v5 : S8x64x1024.Idx → EReal) (ix3 b j i) = (m ((c : Thread nD τ).loc main_arg0) : S8x1024x64.Idx → EReal) (ix3 b i j) := by
  rw [V_v5_term]
  exact transpose_apply _ _ _ (ix3 b j i) (ix3 b i j) (fun a => match a with | ⟨0, _⟩ => rfl | ⟨1, _⟩ => rfl | ⟨2, _⟩ => rfl)

/-- The transposed type words. -/
theorem V_v6_apply (c : Dev nD) (b : Fin 8) (j : Fin 64) (i : Fin 1024) :
    (V m c main_v6 : S8x64x1024.Idx → BitVec 32) (ix3 b j i) = (m ((c : Thread nD τ).loc main_arg1) : S8x1024x64.Idx → BitVec 32) (ix3 b i j) := by
  rw [V_v6_term]
  exact transpose_apply _ _ _ (ix3 b j i) (ix3 b i j) (fun a => match a with | ⟨0, _⟩ => rfl | ⟨1, _⟩ => rfl | ⟨2, _⟩ => rfl)

/-- The table's left half: the exponential of the first table. -/
theorem V_v4_left (c : Dev nD) (r : Fin 512) (k : Fin 256) :
    (V m c main_v4 : S512x512.Idx → EReal) (ix2 r (⟨k.val, by have := k.isLt; omega⟩ : Fin 512))
      = Ideal.exp ((m ((c : Thread nD τ).loc main_arg2) : S512x256.Idx → EReal) (ix2 r k)) := by
  rw [V_v4_term]
  refine (concatenate_pair_apply_left (1 : Fin S512x512.rank) _ _ concatenates_S512x256_S512x256_S512x512_d1
    (ix2 r (⟨k.val, by have := k.isLt; omega⟩ : Fin 512)) rfl (ix2 r k)
    (fun a => match a with | ⟨0, _⟩ => rfl | ⟨1, _⟩ => rfl)).trans ?_
  rfl

/-- The table's right half: the second table. -/
theorem V_v4_right (c : Dev nD) (r : Fin 512) (k : Fin 256) :
    (V m c main_v4 : S512x512.Idx → EReal) (ix2 r (⟨256 + k.val, by have := k.isLt; omega⟩ : Fin 512))
      = (m ((c : Thread nD τ).loc main_arg3) : S512x256.Idx → EReal) (ix2 r k) := by
  rw [V_v4_term]
  exact concatenate_pair_apply_right (1 : Fin S512x512.rank) _ _ concatenates_S512x256_S512x256_S512x512_d1
    (ix2 r (⟨256 + k.val, by have := k.isLt; omega⟩ : Fin 512)) rfl rfl (ix2 r k)
    (fun a => match a with | ⟨0, _⟩ => fun _ => rfl | ⟨1, _⟩ => fun h => absurd rfl h)
    (by show k.val + 256 = 256 + k.val; omega)

/-- The position rows of the first table, exponentiated. -/
theorem V_v2_apply (c : Dev nD) (j : Fin 64) (k : Fin 256) :
    (V m c main_v2 : S64x256.Idx → EReal) (ix2 j k)
      = Ideal.exp ((m ((c : Thread nD τ).loc main_arg2) : S512x256.Idx → EReal) (ix2 (⟨150 + j.val, by have := j.isLt; omega⟩ : Fin 512) k)) := by
  rw [V_v2_term]
  show Ideal.exp (extractStridedSlice S64x256 ![150, 0] (m ((c : Thread nD τ).loc main_arg2) : S512x256.Idx → EReal) slices_S512x256_S64x256_150_0 (ix2 j k)) = _
  refine congrArg Ideal.exp ?_
  exact extractStridedSlice_apply _ _ _ (ix2 j k) (ix2 (⟨150 + j.val, by have := j.isLt; omega⟩ : Fin 512) k)
    (fun a => match a with | ⟨0, _⟩ => rfl | ⟨1, _⟩ => by show k.val = 0 + k.val; omega)

/-- The position rows of the second table. -/
theorem V_v1_apply (c : Dev nD) (j : Fin 64) (k : Fin 256) :
    (V m c main_v1 : S64x256.Idx → EReal) (ix2 j k)
      = (m ((c : Thread nD τ).loc main_arg3) : S512x256.Idx → EReal) (ix2 (⟨150 + j.val, by have := j.isLt; omega⟩ : Fin 512) k) := by
  rw [V_v1_term]
  exact extractStridedSlice_apply _ _ _ (ix2 j k) (ix2 (⟨150 + j.val, by have := j.isLt; omega⟩ : Fin 512) k)
    (fun a => match a with | ⟨0, _⟩ => rfl | ⟨1, _⟩ => by show k.val = 0 + k.val; omega)

end Cert.Proof.HostReads

end
-- ==== Proof.KI.Final.lean ====
/-
  The result array after the idealized kernel's run is `Spec.GK` of the four argument arrays.

  The result's window is written back at every one of the 8 points, point `t` covering batch `t`, so the array after
  the run is, batch by batch, what the body stored at that point: `OUT` of the point's five input blocks.  Those are
  batch `t` of the transposed input and type words, the 512 × 512 table (left half the exponentials of the first table,
  right half the second table) and the two position tables; read at an element, `OUT` is then the 64-term sum of
  `Spec.termK`, times 1/8.
-/
import proofs.«409822_j60859686584405_3_alg».proof.Proof.KI.Run
import proofs.«409822_j60859686584405_3_alg».proof.Proof.KI.Blocks
import proofs.«409822_j60859686584405_3_alg».proof.Proof.KI.BlockValue
import proofs.«409822_j60859686584405_3_alg».proof.Proof.HostReads
import proofs.«409822_j60859686584405_3_alg».proof.Proof.Spec
import Idealize.ShloMosaic.Lib.ValueIdx
import Idealize.ShloMosaic.Lib.Pipeline.Value

noncomputable section

namespace Cert.Proof.KI

open Cert.KernelIdeal Cert.KernelIdeal.Gen
open Idealize.ShloMosaic

variable {F : FTy → Type} [FloatOps F]

open Idealize.ShloMosaic.ValueIdx Idealize.ShloMosaic.TcCoe Idealize.SL.Sem
open scoped BigOperators

variable (m : (ℓ : Loc nD τ sig) → Buf (Elt Ideal) ℓ) (ρ : Dev nD → PrngReg)

/-- The result's block index at point `t`: `t` on the batch axis, 0 on the two others (checked at each of the 8 points). -/
private theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Where element `(0, i, q)` of the result's block at point `t` sits in the result array: at `(t, i, q)`. -/
theorem blk5_emb (t : Fin cfg0.N) (i : Fin 1024) (q : Fin 256) :
    ((cfg0.win 5).blk t).view.emb (ix3 (0 : Fin 1) i q) = (ix3 (⟨t.val, pt_lt t⟩ : Fin 8) i q : S8x1024x256.Idx) := by
  obtain ⟨e0, e1, e2⟩ := idx5 t
  funext a; apply Fin.ext
  match a with
  | ⟨0, _⟩ => show win0_5.index t (0 : Fin 3) * 1 + 1 * 0 = t.val; omega
  | ⟨1, _⟩ => show win0_5.index t (1 : Fin 3) * 1024 + 1 * i.val = i.val; omega
  | ⟨2, _⟩ => show win0_5.index t (2 : Fin 3) * 256 + 1 * q.val = q.val; omega

/-- The type words of the block at point `t` lie in `[0, 512)` when the argument's do. -/
theorem blk_ty_lt (c : Dev nD)
    (hty : ∀ y, (((m ((c.tc : Thread nD τ).loc main_arg1)) : S8x1024x64.Idx → BitVec 32) y).toNat < 512) (t : Fin cfg0.N) :
    ∀ y, ((iblk m c 1 t : S1x64x1024.Idx → BitVec 32) y).toNat < 512 := by
  intro y
  obtain ⟨a, j, i, rfl⟩ : ∃ (a : Fin 1) (j : Fin 64) (i : Fin 1024), y = ix3 a j i := ⟨y 0, y 1, y 2, eq_ix3 y⟩
  obtain rfl : a = 0 := Subsingleton.elim _ _
  rw [iblk1_apply m c t j i, Cert.Proof.HostReads.V_v6_apply m c _ j i]
  exact hty _

/-- Position `j`'s term of the block at point `t` is `Spec.termK` of the arguments at batch `t`. -/
theorem blockTerm_eq (c : Dev nD) (t : Fin cfg0.N) (i : Fin 1024) (q : Fin 256) (j : Fin 64) :
    blockTerm (iblk m c 0 t) (iblk m c 1 t) (iblk m c 2 t) (iblk m c 3 t) (iblk m c 4 t) i q j
      = Cert.Spec.termK ((m ((c.tc : Thread nD τ).loc main_arg0)) : S8x1024x64.Idx → EReal) ((m ((c.tc : Thread nD τ).loc main_arg1)) : S8x1024x64.Idx → BitVec 32)
          ((m ((c.tc : Thread nD τ).loc main_arg2)) : S512x256.Idx → EReal) ((m ((c.tc : Thread nD τ).loc main_arg3)) : S512x256.Idx → EReal)
          (⟨t.val, pt_lt t⟩ : Fin 8) i q j := by
  have e1 : (iblk m c 0 t : S1x64x1024.Idx → EReal) (ix3 (0 : Fin 1) j i)
      = ((m ((c.tc : Thread nD τ).loc main_arg0)) : S8x1024x64.Idx → EReal) (ix3 (⟨t.val, pt_lt t⟩ : Fin 8) i j) :=
    (iblk0_apply m c t j i).trans (Cert.Proof.HostReads.V_v5_apply m c _ j i)
  have e2 : (iblk m c 1 t : S1x64x1024.Idx → BitVec 32) (ix3 (0 : Fin 1) j i)
      = ((m ((c.tc : Thread nD τ).loc main_arg1)) : S8x1024x64.Idx → BitVec 32) (ix3 (⟨t.val, pt_lt t⟩ : Fin 8) i j) :=
    (iblk1_apply m c t j i).trans (Cert.Proof.HostReads.V_v6_apply m c _ j i)
  have e3l : ∀ r : Fin 512, (iblk m c 2 t : S512x512.Idx → EReal) (ix2 r (⟨q.val, by have := q.isLt; omega⟩ : Fin 512))
      = Ideal.exp (((m ((c.tc : Thread nD τ).loc main_arg2)) : S512x256.Idx → EReal) (ix2 r q)) := fun r =>
    (congrFun (iblk2_eq m c t) _).trans (Cert.Proof.HostReads.V_v4_left m c r q)
  have e3r : ∀ r : Fin 512, (iblk m c 2 t : S512x512.Idx → EReal) (ix2 r (⟨256 + q.val, by have := q.isLt; omega⟩ : Fin 512))
      = ((m ((c.tc : Thread nD τ).loc main_arg3)) : S512x256.Idx → EReal) (ix2 r q) := fun r =>
    (congrFun (iblk2_eq m c t) _).trans (Cert.Proof.HostReads.V_v4_right m c r q)
  have e4 : (iblk m c 3 t : S64x256.Idx → EReal) (ix2 j q)
      = Ideal.exp (((m ((c.tc : Thread nD τ).loc main_arg2)) : S512x256.Idx → EReal) (ix2 (Cert.Spec.posRow j) q)) :=
    (congrFun (iblk3_eq m c t) _).trans (Cert.Proof.HostReads.V_v2_apply m c j q)
  have e5 : (iblk m c 4 t : S64x256.Idx → EReal) (ix2 j q)
      = ((m ((c.tc : Thread nD τ).loc main_arg3)) : S512x256.Idx → EReal) (ix2 (Cert.Spec.posRow j) q) :=
    (congrFun (iblk4_eq m c t) _).trans (Cert.Proof.HostReads.V_v1_apply m c j q)
  unfold blockTerm Cert.Proof.KTerm.kstep Cert.Spec.termK
  rw [e2, e1, e3l, e3r, e4, e5]

/-- What point `t` writes back is block `t` of `Spec.GK` of the arguments. -/
theorem flushed5_eq (c : Dev nD)
    (hty : ∀ y, (((m ((c.tc : Thread nD τ).loc main_arg1)) : S8x1024x64.Idx → BitVec 32) y).toNat < 512) (t : Fin cfg0.N) :
    (dats m 0 c).flushed 5 t = ((cfg0.win 5).blk t).view.read (Elt Ideal)
      (Cert.Spec.GK ((m ((c.tc : Thread nD τ).loc main_arg0)) : S8x1024x64.Idx → EReal) ((m ((c.tc : Thread nD τ).loc main_arg1)) : S8x1024x64.Idx → BitVec 32)
          ((m ((c.tc : Thread nD τ).loc main_arg2)) : S512x256.Idx → EReal) ((m ((c.tc : Thread nD τ).loc main_arg3)) : S512x256.Idx → EReal) : S8x1024x256.Idx → EReal) := by
  show (cfg0.win 5).cut (grid0.coords t) ((dats m 0 c).after 5 t) = _
  rw [after0_5]
  refine funext fun (y : S1x1024x256.Idx) => ?_
  obtain ⟨a, i, q, rfl⟩ : ∃ (a : Fin 1) (i : Fin 1024) (q : Fin 256), y = ix3 a i q := ⟨y 0, y 1, y 2, eq_ix3 y⟩
  obtain rfl : a = 0 := Subsingleton.elim _ _
  show OUT (F := Ideal) (iblk m c 0 t) (iblk m c 1 t) (iblk m c 2 t) (iblk m c 3 t) (iblk m c 4 t) (ix3 (0 : Fin 1) i q)
    = Cert.Spec.GK ((m ((c.tc : Thread nD τ).loc main_arg0)) : S8x1024x64.Idx → EReal) ((m ((c.tc : Thread nD τ).loc main_arg1)) : S8x1024x64.Idx → BitVec 32)
          ((m ((c.tc : Thread nD τ).loc main_arg2)) : S512x256.Idx → EReal) ((m ((c.tc : Thread nD τ).loc main_arg3)) : S512x256.Idx → EReal)
        (((cfg0.win 5).blk t).view.emb (ix3 (0 : Fin 1) i q))
  rw [blk5_emb t i q, OUT_apply _ _ _ _ _ (blk_ty_lt m c hty t) i q]
  show _ = Cert.Spec.GKat _ _ _ _ (⟨t.val, pt_lt t⟩ : Fin 8) i q
  unfold Cert.Spec.GKat
  exact congrArg (fun s => s * Ideal.ofBits .f32 0x3E000000#32) (Finset.sum_congr rfl fun j _ => blockTerm_eq m c t i q j)

/-- Every index of the result array is in the block of the point of its batch, which is written back. -/
theorem cover5 (i : S8x1024x256.Idx) :
    ∃ t : Fin cfg0.N, (cfg0.win 5).flush t = true ∧ i ∈ ((cfg0.win 5).blk t).view.set := by
  have hb : (i 0).val < 8 := (i 0).isLt
  have hN : (i 0).val < cfg0.N := by show _ < grid0.N; rw [N_0]; exact hb
  refine ⟨⟨(i 0).val, hN⟩, flush0_5 _, ?_⟩
  have e : ((cfg0.win 5).blk ⟨(i 0).val, hN⟩).view.emb (ix3 (0 : Fin 1) (i 1 : Fin 1024) (i 2 : Fin 256)) = i :=
    (blk5_emb ⟨(i 0).val, hN⟩ (i 1) (i 2)).trans
      (funext fun a => match a with | ⟨0, _⟩ => rfl | ⟨1, _⟩ => rfl | ⟨2, _⟩ => rfl)
  have hm := ((cfg0.win 5).blk ⟨(i 0).val, hN⟩).view.emb_mem_set (ix3 (0 : Fin 1) (i 1 : Fin 1024) (i 2 : Fin 256))
  rw [e] at hm
  exact hm

/-- The result array after the last point: `Spec.GK` of the arguments, when every type word lies in `[0, 512)`. -/
theorem final_out (c : Dev nD)
    (hty : ∀ y, (((m ((c.tc : Thread nD τ).loc main_arg1)) : S8x1024x64.Idx → BitVec 32) y).toNat < 512) :
    ((dats m 0 c).arrAt 5 cfg0.N : S8x1024x256.Idx → EReal)
      = Cert.Spec.GK ((m ((c.tc : Thread nD τ).loc main_arg0)) : S8x1024x64.Idx → EReal) ((m ((c.tc : Thread nD τ).loc main_arg1)) : S8x1024x64.Idx → BitVec 32)
          ((m ((c.tc : Thread nD τ).loc main_arg2)) : S512x256.Idx → EReal) ((m ((c.tc : Thread nD τ).loc main_arg3)) : S512x256.Idx → EReal) :=
  (dats m 0 c).arrAt_eq_of_cover 5 _ (fun t _ => flushed5_eq m c hty t) cover5

/-- The idealized kernel's run with its result named: every weakly fair execution terminates, the result array ends at
    `Spec.GK` of the arguments and the four argument arrays end unchanged. -/
theorem run_value (hty : ∀ (c : Dev nD) y, (((m ((c.tc : Thread nD τ).loc main_arg1)) : S8x1024x64.Idx → BitVec 32) y).toNat < 512) :
    θ_run defs (onTc (τ := τ) (main (F := Ideal))) ⟨m, fun _ => 0, ρ⟩ (fun r => ∀ c : Dev nD,
      r.2.mem ((c.tc : Thread nD τ).loc main_v7)
          = (Cert.Spec.GK ((m ((c.tc : Thread nD τ).loc main_arg0)) : S8x1024x64.Idx → EReal) ((m ((c.tc : Thread nD τ).loc main_arg1)) : S8x1024x64.Idx → BitVec 32)
              ((m ((c.tc : Thread nD τ).loc main_arg2)) : S512x256.Idx → EReal) ((m ((c.tc : Thread nD τ).loc main_arg3)) : S512x256.Idx → EReal) : S8x1024x256.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 5).trans (final_out m c (hty c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Proof.KI

end
-- ==== Proof.RefValue.lean ====
/-
  The reference's result, read index by index, is the function `Spec.GR` of the four argument arrays, when every type
  word lies in `[0, 512)` (then the reference's wrap of a negative index leaves the word alone and its gather's clamp
  is the identity).
-/
import proofs.«409822_j60859686584405_3_alg».proof.Proof.Gen.ReferenceIdeal.Read
import proofs.«409822_j60859686584405_3_alg».proof.Proof.Spec
import Idealize.ShloMosaic.Lib.ValueIdx
import Idealize.ShloMosaic.Lib.Pipeline.Value
import Idealize.ShloMosaic.PureOps.Ideal.Laws

noncomputable section

open scoped BigOperators

namespace Cert.Proof.RefValue

open Cert.ReferenceIdeal Cert.ReferenceIdeal.Gen Idealize.ShloMosaic Idealize.ShloMosaic.ValueIdx

/-! ## A gather of table rows, read at an index

The operand is a table `[512, 256]`; the start indices carry one component (the row), on a last axis of size one; the
result's last axis is the table's column axis, whole. Result element `(…, k)` is the table at the row the start index
names, read signed and clamped into `[0, 511]`, column `k`. -/

section Gather
variable {α : Type} {w : Nat}

/-- The gather into `[8, 1024, 64, 256]` at `(b, i, j, k)`. -/
theorem gather4_apply (x : S512x256.Idx → α) (idx : IVec S8x1024x64x1 w)
    (b : Fin 8) (i : Fin 1024) (j : Fin 64) (k : Fin 256) :
    Host.gather gather_S512x256_S8x1024x64x1_S8x1024x64x256_3_0_n_n_0_3_1256 x idx (ix4 b i j k)
      = x (ix2 ⟨min (idx (ix4 b i j (0 : Fin 1))).toInt.toNat 511, by omega⟩ k) := by
  unfold Host.gather
  congr 1
  funext a
  refine Fin.ext ?_
  match a with
  | ⟨0, _⟩ =>
    show gather_S512x256_S8x1024x64x1_S8x1024x64x256_3_0_n_n_0_3_1256.start (ix4 b i j k) idx 0
      + gather_S512x256_S8x1024x64x1_S8x1024x64x256_3_0_n_n_0_3_1256.batchCoord (ix4 b i j k) 0
      + gather_S512x256_S8x1024x64x1_S8x1024x64x256_3_0_n_n_0_3_1256.offCoord (ix4 b i j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x256_S8x1024x64x1_S8x1024x64x256_3_0_n_n_0_3_1256.startIndexMap from
      List.mem_singleton.mpr rfl)]
    have hsi : gather_S512x256_S8x1024x64x1_S8x1024x64x256_3_0_n_n_0_3_1256.siIdx (ix4 b i j k)
        ⟨List.idxOf (0 : Fin 2) gather_S512x256_S8x1024x64x1_S8x1024x64x256_3_0_n_n_0_3_1256.startIndexMap,
          List.idxOf_lt_length_iff.2 (List.mem_singleton.mpr rfl)⟩ = ix4 b i j (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S512x256_S8x1024x64x1_S8x1024x64x256_3_0_n_n_0_3_1256.start (ix4 b i j k) idx 1
      + gather_S512x256_S8x1024x64x1_S8x1024x64x256_3_0_n_n_0_3_1256.batchCoord (ix4 b i j k) 1
      + gather_S512x256_S8x1024x64x1_S8x1024x64x256_3_0_n_n_0_3_1256.offCoord (ix4 b i j k) 1 = _
    rw [GatherDims.batchCoord_eq_zero _ _ _ List.not_mem_nil]
    unfold GatherDims.start
    rw [dif_neg (show (1 : Fin 2) ∉ gather_S512x256_S8x1024x64x1_S8x1024x64x256_3_0_n_n_0_3_1256.startIndexMap from by decide)]
    unfold GatherDims.offCoord
    rw [dif_pos (show (1 : Fin 2) ∈ gather_S512x256_S8x1024x64x1_S8x1024x64x256_3_0_n_n_0_3_1256.sKept from by decide)]
    simp only [Nat.zero_add]
    rfl

/-- The gather into `[64, 256]` at `(j, k)`. -/
theorem gather2_apply (x : S512x256.Idx → α) (idx : IVec S64x1 w) (j : Fin 64) (k : Fin 256) :
    Host.gather gather_S512x256_S64x1_S64x256_1_0_n_n_0_1_1256 x idx (ix2 j k)
      = x (ix2 ⟨min (idx (ix2 j (0 : Fin 1))).toInt.toNat 511, by omega⟩ k) := by
  unfold Host.gather
  congr 1
  funext a
  refine Fin.ext ?_
  match a with
  | ⟨0, _⟩ =>
    show gather_S512x256_S64x1_S64x256_1_0_n_n_0_1_1256.start (ix2 j k) idx 0
      + gather_S512x256_S64x1_S64x256_1_0_n_n_0_1_1256.batchCoord (ix2 j k) 0
      + gather_S512x256_S64x1_S64x256_1_0_n_n_0_1_1256.offCoord (ix2 j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x256_S64x1_S64x256_1_0_n_n_0_1_1256.startIndexMap from
      List.mem_singleton.mpr rfl)]
    have hsi : gather_S512x256_S64x1_S64x256_1_0_n_n_0_1_1256.siIdx (ix2 j k)
        ⟨List.idxOf (0 : Fin 2) gather_S512x256_S64x1_S64x256_1_0_n_n_0_1_1256.startIndexMap,
          List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    rfl
  | ⟨1, _⟩ =>
    show gather_S512x256_S64x1_S64x256_1_0_n_n_0_1_1256.start (ix2 j k) idx 1
      + gather_S512x256_S64x1_S64x256_1_0_n_n_0_1_1256.batchCoord (ix2 j k) 1
      + gather_S512x256_S64x1_S64x256_1_0_n_n_0_1_1256.offCoord (ix2 j k) 1 = _
    rw [GatherDims.batchCoord_eq_zero _ _ _ List.not_mem_nil]
    unfold GatherDims.start
    rw [dif_neg (show (1 : Fin 2) ∉ gather_S512x256_S64x1_S64x256_1_0_n_n_0_1_1256.startIndexMap from by decide)]
    unfold GatherDims.offCoord
    rw [dif_pos (show (1 : Fin 2) ∈ gather_S512x256_S64x1_S64x256_1_0_n_n_0_1_1256.sKept from by decide)]
    simp only [Nat.zero_add]
    rfl

end Gather

/-! ## Words below 512 -/

/-- A 32-bit word below 512 reads the same signed as unsigned … -/
theorem toInt_of_lt {t : BitVec 32} (h : t.toNat < 512) : t.toInt = (t.toNat : Int) := by
  rw [BitVec.toInt_eq_toNat_cond, if_pos (by omega)]

/-- … so it is not below zero … -/
theorem cmpi_slt_zero {t : BitVec 32} (h : t.toNat < 512) : IntOp.cmpi .slt t 0#32 = 0#1 := by
  have h0 : t.slt 0#32 = false := by
    unfold BitVec.slt
    rw [toInt_of_lt h]
    exact decide_eq_false (by simp)
  show BitVec.ofBool (t.slt 0#32) = 0#1
  rw [h0]; rfl

/-- … the wrap of a negative index leaves it alone … -/
theorem wrap_of_lt {t : BitVec 32} (h : t.toNat < 512) :
    Scalar.select (IntOp.cmpi .slt t 0#32) (IntOp.addi t 512#32) t = t := by
  rw [cmpi_slt_zero h]; exact select_zero _ _

/-- … and the clamp into `[0, 511]` is the identity on it. -/
theorem clamp_of_lt {t : BitVec 32} (h : t.toNat < 512) : min t.toInt.toNat 511 = t.toNat := by
  rw [toInt_of_lt h, Int.toNat_natCast]; omega

/-- The position word `150 + j`. -/
theorem pos_word (j : Fin 64) : IntOp.addi 150#32 (BitVec.ofNat 32 j.val) = BitVec.ofNat 32 (150 + j.val) :=
  (BitVec.ofNat_add 150 j.val).symm

theorem pos_word_toNat (j : Fin 64) : (BitVec.ofNat 32 (150 + j.val)).toNat = 150 + j.val := by
  rw [BitVec.toNat_ofNat]; exact Nat.mod_eq_of_lt (by have := j.isLt; omega)

/-! ## The two start-index arrays -/

open Cert.ReferenceIdeal.Read

section Stages
variable (x0 : (⟨S8x1024x64, .f32⟩ : BufTy).Contents (Elt Ideal)) (x1 : (⟨S8x1024x64, .i32⟩ : BufTy).Contents (Elt Ideal))
  (x2 x3 : (⟨S512x256, .f32⟩ : BufTy).Contents (Elt Ideal))

/-- The wrapped type word is the type word, when it lies in `[0, 512)` (the table read by `E`) … -/
theorem v7_apply (hty : ∀ i, (x1 i).toNat < 512) (t : S8x1024x64.Idx) : val_main_v7 (F := Ideal) x1 t = x1 t := by
  rw [val_main_v7_apply, val_main_v4_apply, val_main_v6_apply, val_main_v3_apply, val_main_v5_apply, val_main_c_0_apply,
    val_main_c_1_apply]
  exact wrap_of_lt (hty t)

/-- … and the same for the table read by `P`. -/
theorem v24_apply (hty : ∀ i, (x1 i).toNat < 512) (t : S8x1024x64.Idx) : val_main_v24 (F := Ideal) x1 t = x1 t := by
  rw [val_main_v24_apply, val_main_v21_apply, val_main_v23_apply, val_main_v20_apply, val_main_v22_apply, val_main_c_4_apply,
    val_main_c_5_apply]
  exact wrap_of_lt (hty t)

/-- The position word at `j` is `150 + j`. -/
theorem v2_apply (j : Fin 64) : val_main_v2 (F := Ideal) (ix1 j) = BitVec.ofNat 32 (150 + j.val) := by
  rw [val_main_v2_apply, val_main_v1_apply, val_main_c_apply, val_main_v0_apply]
  exact pos_word j

/-- Its wrap leaves it alone (the table read by `E`) … -/
theorem v14_apply (j : Fin 64) : val_main_v14 (F := Ideal) (ix1 j) = BitVec.ofNat 32 (150 + j.val) := by
  rw [val_main_v14_apply, val_main_v11_apply, val_main_v13_apply, val_main_v10_apply, val_main_v12_apply, val_main_c_2_apply,
    val_main_c_3_apply, v2_apply]
  exact wrap_of_lt (by rw [pos_word_toNat]; have := j.isLt; omega)

/-- … and the same for the table read by `P`. -/
theorem v31_apply (j : Fin 64) : val_main_v31 (F := Ideal) (ix1 j) = BitVec.ofNat 32 (150 + j.val) := by
  rw [val_main_v31_apply, val_main_v28_apply, val_main_v30_apply, val_main_v27_apply, val_main_v29_apply, val_main_c_6_apply,
    val_main_c_7_apply, v2_apply]
  exact wrap_of_lt (by rw [pos_word_toNat]; have := j.isLt; omega)

/-! ## The four gathers -/

/-- Row `ty[b, i, j]` of `E`. -/
theorem v9_apply (hty : ∀ i, (x1 i).toNat < 512) (b : Fin 8) (i : Fin 1024) (j : Fin 64) (k : Fin 256) :
    val_main_v9 (F := Ideal) x1 x2 (ix4 b i j k) = x2 (ix2 (Cert.Spec.tyRow (x1 (ix3 b i j))) k) := by
  unfold val_main_v9
  refine (gather4_apply x2 (val_main_v8 (F := Ideal) x1) b i j k).trans ?_
  refine congrArg x2 (congrArg (fun r => ix2 r k) (Fin.ext ?_))
  show min (val_main_v8 (F := Ideal) x1 (ix4 b i j (0 : Fin 1))).toInt.toNat 511 = (Cert.Spec.tyRow (x1 (ix3 b i j))).val
  have hidx : idx_main_v8 (ix4 b i j (0 : Fin 1)) = ix3 b i j := by
    funext a; match a with | ⟨0, _⟩ => rfl | ⟨1, _⟩ => rfl | ⟨2, _⟩ => rfl
  rw [val_main_v8_apply, v7_apply x1 hty, hidx, clamp_of_lt (hty _), Cert.Spec.tyRow_val_of_lt (hty _)]

/-- Row `ty[b, i, j]` of `P`. -/
theorem v26_apply (hty : ∀ i, (x1 i).toNat < 512) (b : Fin 8) (i : Fin 1024) (j : Fin 64) (k : Fin 256) :
    val_main_v26 (F := Ideal) x1 x3 (ix4 b i j k) = x3 (ix2 (Cert.Spec.tyRow (x1 (ix3 b i j))) k) := by
  unfold val_main_v26
  refine (gather4_apply x3 (val_main_v25 (F := Ideal) x1) b i j k).trans ?_
  refine congrArg x3 (congrArg (fun r => ix2 r k) (Fin.ext ?_))
  show min (val_main_v25 (F := Ideal) x1 (ix4 b i j (0 : Fin 1))).toInt.toNat 511 = (Cert.Spec.tyRow (x1 (ix3 b i j))).val
  have hidx : idx_main_v25 (ix4 b i j (0 : Fin 1)) = ix3 b i j := by
    funext a; match a with | ⟨0, _⟩ => rfl | ⟨1, _⟩ => rfl | ⟨2, _⟩ => rfl
  rw [val_main_v25_apply, v24_apply x1 hty, hidx, clamp_of_lt (hty _), Cert.Spec.tyRow_val_of_lt (hty _)]

/-- Row `150 + j` of `E`. -/
theorem v16_apply (j : Fin 64) (k : Fin 256) :
    val_main_v16 (F := Ideal) x2 (ix2 j k) = x2 (ix2 (Cert.Spec.posRow j) k) := by
  unfold val_main_v16
  refine (gather2_apply x2 (val_main_v15 (F := Ideal)) j k).trans ?_
  refine congrArg x2 (congrArg (fun r => ix2 r k) (Fin.ext ?_))
  show min (val_main_v15 (F := Ideal) (ix2 j (0 : Fin 1))).toInt.toNat 511 = 150 + j.val
  have hidx : idx_main_v15 (ix2 j (0 : Fin 1)) = ix1 j := by
    funext a; match a with | ⟨0, _⟩ => rfl
  have hlt : (BitVec.ofNat 32 (150 + j.val)).toNat < 512 := by rw [pos_word_toNat]; have := j.isLt; omega
  rw [val_main_v15_apply, hidx, v14_apply, clamp_of_lt hlt, pos_word_toNat]

/-- Row `150 + j` of `P`. -/
theorem v33_apply (j : Fin 64) (k : Fin 256) :
    val_main_v33 (F := Ideal) x3 (ix2 j k) = x3 (ix2 (Cert.Spec.posRow j) k) := by
  unfold val_main_v33
  refine (gather2_apply x3 (val_main_v32 (F := Ideal)) j k).trans ?_
  refine congrArg x3 (congrArg (fun r => ix2 r k) (Fin.ext ?_))
  show min (val_main_v32 (F := Ideal) (ix2 j (0 : Fin 1))).toInt.toNat 511 = 150 + j.val
  have hidx : idx_main_v32 (ix2 j (0 : Fin 1)) = ix1 j := by
    funext a; match a with | ⟨0, _⟩ => rfl
  have hlt : (BitVec.ofNat 32 (150 + j.val)).toNat < 512 := by rw [pos_word_toNat]; have := j.isLt; omega
  rw [val_main_v32_apply, hidx, v31_apply, clamp_of_lt hlt, pos_word_toNat]

/-! ## One term, and the result -/

/-- The cosine stage at `(b, i, j, k)` is position `j`'s term at `(b, i, k)`. -/
theorem v42_apply (hty : ∀ i, (x1 i).toNat < 512) (b : Fin 8) (i : Fin 1024) (j : Fin 64) (k : Fin 256) :
    val_main_v42 (F := Ideal) x0 x1 x2 x3 (ix4 b i j k) = Cert.Spec.termR x0 x1 x2 x3 b i k j := by
  have h1 : idx_main_v37 (idx_main_v39 (ix4 b i j k)) = ix3 b i j := by
    funext a; match a with | ⟨0, _⟩ => rfl | ⟨1, _⟩ => rfl | ⟨2, _⟩ => rfl
  have h2 : idx_main_v17 (idx_main_v18 (ix4 b i j k)) = ix2 j k := by
    funext a; match a with | ⟨0, _⟩ => rfl | ⟨1, _⟩ => rfl
  have h3 : idx_main_v34 (idx_main_v35 (ix4 b i j k)) = ix2 j k := by
    funext a; match a with | ⟨0, _⟩ => rfl | ⟨1, _⟩ => rfl
  rw [val_main_v42_apply, val_main_v41_apply, val_main_v40_apply, val_main_v39_apply, val_main_v37_apply, val_main_v38_apply,
    val_main_v19_apply, val_main_v36_apply, v9_apply x1 x2 hty, v26_apply x1 x3 hty, val_main_v18_apply, val_main_v17_apply,
    val_main_v35_apply, val_main_v34_apply, h1, h2, h3, v16_apply, v33_apply]
  simp only [Ideal.hostUnary_cos_def, Ideal.hostUnary_exp_def, Ideal.mulf_def, Ideal.addf_def]
  rfl

end Stages

/-- The reference's last stage is `Spec.GR` of the arguments. -/
theorem ref_eq (x0 : (⟨S8x1024x64, .f32⟩ : BufTy).Contents (Elt Ideal)) (x1 : (⟨S8x1024x64, .i32⟩ : BufTy).Contents (Elt Ideal))
    (x2 x3 : (⟨S512x256, .f32⟩ : BufTy).Contents (Elt Ideal)) (hty : ∀ i, (x1 i).toNat < 512) :
    Cert.ReferenceIdeal.Read.val_main_v45 (F := Ideal) x0 x1 x2 x3 = Cert.Spec.GR x0 x1 x2 x3 := by
  funext o
  obtain ⟨b, i, k, rfl⟩ : ∃ (b : Fin 8) (i : Fin 1024) (k : Fin 256), o = ix3 b i k := ⟨o 0, o 1, o 2, eq_ix3 o⟩
  show _ = Cert.Spec.GRat x0 x1 x2 x3 b i k
  have hq : ∀ j : Fin 64, idx_main_v43 (ix3 b i k) j = ix4 b i j k := fun j => by
    funext a; match a with | ⟨0, _⟩ => rfl | ⟨1, _⟩ => rfl | ⟨2, _⟩ => rfl | ⟨3, _⟩ => rfl
  rw [val_main_v45_apply, val_main_v44_apply, val_main_cst_8_apply, val_main_v43_apply, val_main_cst_apply]
  simp only [Ideal.mulf_def, Ideal.ofBits_def, Ideal.ofBits_zero_f32, zero_add]
  unfold Cert.Spec.GRat
  refine congrArg (· * _) (Finset.sum_congr rfl fun j _ => ?_)
  rw [hq j, v42_apply x0 x1 x2 x3 hty]

end Cert.Proof.RefValue

end
-- ==== Proof.PreFacts.lean ====
/-
  What the precondition says of the arguments: the first table holds real numbers, and every type word lies in
  `[0, 512)`.  (The precondition also makes the float input and the second table finite; the comparison of the two
  programs does not use that.)

  The precondition is a conjunction of five "for all entries" tests, and its value is the one-bit word 1.  A conjunction
  of bits is 1 only when each conjunct is; a "for all" that is 1 had a 1 at every entry.  So at each entry of the first
  table `|x| < +∞` holds, which rules out both infinities of the extended reals and leaves a real number; and at each
  type word `w` both `0 ≤ w` and `w < 512` hold for the signed reading, so the top bit is clear, the signed and
  unsigned readings agree, and the unsigned reading is below 512.
-/
import proofs.«409822_j60859686584405_3_alg».proof.Pre_finite_inputs
import proofs.«409822_j60859686584405_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Proof.PreFacts

open Idealize.ShloMosaic Idealize.ShloMosaic.ValueIdx Cert.Pre_finite_inputs

/-- The shape of a scalar has exactly one index (there is no axis to choose a coordinate on). -/
local instance : Subsingleton S_.Idx := ⟨fun a b => funext fun d => d.elim0⟩

/-- An extended real whose absolute value `max x (-x)` tests below `+∞` (the pattern `0x7F800000`) is a real number:
    at `⊥` and at `⊤` the absolute value is `⊤`, which is not below itself. -/
private theorem real_of_abs_lt_top (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => simp [Ideal.cmp] at h
  | coe r => exact ⟨r, rfl⟩
  | top => simp [Ideal.cmp] at h

/-- A 32-bit word that is `≥ 0` and `< 512` in the signed reading is below 512 in the unsigned reading: were its top
    bit set the signed reading would be negative. -/
private theorem toNat_lt_of_signed (a : BitVec 32) (h0 : IntOp.cmpi .sge a 0#32 = 1#1)
    (h1 : IntOp.cmpi .slt a 512#32 = 1#1) : a.toNat < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  rw [BitVec.toInt_eq_toNat_cond] at h0 h1
  split at h0 <;> omega

/-- From the precondition's all-ones result: the first table's entries are reals, the type words are in range. -/
theorem pre_facts [Cert.Pre_finite_inputs.Facts] (x0 : FVec Ideal S8x1024x64 .f32) (x1 : IVec S8x1024x64 32) (x2 x3 : FVec Ideal S512x256 .f32)
    (h : Cert.Pre_finite_inputs.fn (F := Ideal) x0 x1 x2 x3 = fun _ => 1#1) :
    (∀ i, ∃ r : ℝ, x2 i = (r : EReal)) ∧ (∀ i, (x1 i).toNat < 512) := by
  -- the value at the scalar's one index, written out as the conjunction of the five tests
  have h0 := congrFun h ValueIdx.ix0
  dsimp only [fn, fn_part1] at h0
  -- ((((finite x0 ∧ finite x2) ∧ finite x3) ∧ 0 ≤ x1) ∧ x1 < 512) = 1: peel the conjuncts from the outside
  obtain ⟨h1234, hE⟩ := IntOp.andi_eq_one.1 (show IntOp.andi _ _ = 1#1 from h0)
  obtain ⟨h123, hD⟩ := IntOp.andi_eq_one.1 (show IntOp.andi _ _ = 1#1 from h1234)
  obtain ⟨h12, -⟩ := IntOp.andi_eq_one.1 (show IntOp.andi _ _ = 1#1 from h123)
  obtain ⟨-, hB⟩ := IntOp.andi_eq_one.1 (show IntOp.andi _ _ = 1#1 from h12)
  refine ⟨fun i => ?_, fun i => ?_⟩
  · -- the test on the first table holds at entry `i`: `|x2 i| < +∞`
    have e := Host.reduce_andi_all _ _ _ _ _ hB i
    exact real_of_abs_lt_top (x2 i) e
  · -- both tests on the type words hold at entry `i`: `0 ≤ x1 i` and `x1 i < 512`, signed
    have eD := Host.reduce_andi_all _ _ _ _ _ hD i
    have eE := Host.reduce_andi_all _ _ _ _ _ hE i
    exact toNat_lt_of_signed (x1 i) eD eE

end Cert.Proof.PreFacts

end
-- ==== Proof.lean ====
/-
  The certificate of one kernel against its reference: for a batch `b`, a row `i`, a column `k` both compute
      (∑ j : Fin 64, cos (x[b,i,j] · exp (E[t,k] + E[150+j,k]) + (P[t,k] + P[150+j,k]))) · (1/8),   t = ty[b,i,j],
  over the extended reals, under the precondition: the float inputs finite and every type word in `[0, 512)`.

  The kernel selects row `t` of a 512 × 512 table (left half `exp E`, right half `P`) by the product of the 0/1
  indicator row of `t` with the table — a sum with one term that is not `0 · y = 0`, so it is the row whenever `t` is
  in range, which is where the range of the type words is used (out of range the kernel's indicator row is zero while
  the reference wraps and clamps the index) —, multiplies `exp E[t,k]` by the exponentiated position entry
  `exp E[150+j,k]` where the reference exponentiates the sum — equal on real numbers, which is where the finiteness
  of `E` is used —, and adds the 64 terms two per trip of a 32-trip loop, the same sum by commutativity and
  associativity.  The three frames: the two kernel programs run by the loop's invariant at every grid point, the
  reference is a straight-line host program.  The idealization rewrote nothing, so `preserves` is trivial.
-/
import proofs.«409822_j60859686584405_3_alg».proof.Defs
import proofs.«409822_j60859686584405_3_alg».proof.Proof.K.Run
import proofs.«409822_j60859686584405_3_alg».proof.Proof.KI.Run
import proofs.«409822_j60859686584405_3_alg».proof.Proof.KI.Final
import proofs.«409822_j60859686584405_3_alg».proof.Proof.RefValue
import proofs.«409822_j60859686584405_3_alg».proof.Proof.PreFacts
import proofs.«409822_j60859686584405_3_alg».proof.Proof.Spec
import proofs.«409822_j60859686584405_3_alg».proof.Proof.Gen.ReferenceIdeal
import proofs.«409822_j60859686584405_3_alg».proof.Proof.Gen.ReferenceIdeal.Run
import proofs.«409822_j60859686584405_3_alg».proof.Proof.Gen.ReferenceIdeal.Read
import proofs.«409822_j60859686584405_3_alg».proof.Proof.Gen.Pre_finite_inputs
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Proof.K.frame (F := Bits) m ρ

/-- So does the idealized kernel program. -/
theorem frame_ki : Cert.frame_KernelIdeal := fun m ρ _ => Cert.Proof.KI.frame (F := Ideal) m ρ

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the idealized kernel ends at `Spec.GK` of them and the reference at
    `Spec.GR`; under the precondition the two are one array. -/
theorem algebraic : Cert.algebraic_KernelIdeal_ReferenceIdeal := by
  intro m ρ m' ρ' hpre hagree
  have hf := fun c => Cert.Proof.PreFacts.pre_facts _ _ _ _ (hpre c)
  refine ⟨_, Cert.Proof.KI.run_value m ρ (fun c => (hf c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2.1, (hagree c).2.2.2]
  rw [Cert.Proof.RefValue.ref_eq _ _ _ _ (hf c).2]
  exact (Cert.Spec.GK_eq_GR _ _ _ _ (hf c).1).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
